-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8x1024x1024 : Shape := ⟨3, ![8, 1024, 1024]⟩
abbrev S8192 : Shape := ⟨1, ![8192]⟩
abbrev S512 : Shape := ⟨1, ![512]⟩
abbrev S8 : Shape := ⟨1, ![8]⟩
abbrev S4096x2 : Shape := ⟨2, ![4096, 2]⟩
abbrev S8192x8192 : Shape := ⟨2, ![8192, 8192]⟩
abbrev S_ : Shape := ⟨0, ![]⟩

class Facts : Prop where
  bcast_S8192_S8192x8192_0 : S8192.BroadcastsInDim S8192x8192 (![0] : Fin 1 → Fin S8192x8192.rank)
  bcast_S8192_S8192x8192_1 : S8192.BroadcastsInDim S8192x8192 (![1] : Fin 1 → Fin S8192x8192.rank)
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S4096x2 : S_.BroadcastsInDim S4096x2 (![] : Fin 0 → Fin S4096x2.rank)
  reducesTo_S4096x2_S_d0_1 : S4096x2.ReducesTo [0, 1] S_
  bcast_S_S8192 : S_.BroadcastsInDim S8192 (![] : Fin 0 → Fin S8192.rank)
  reducesTo_S8192_S_d0 : S8192.ReducesTo [0] S_
  reducesTo_S8192x8192_S_d0_1 : S8192x8192.ReducesTo [0, 1] S_

variable [Facts]

def fn_part1 {F : FTy → Type} [FloatOps F] (main_arg3 : IVec S8192 32) (main_v0 : IVec S8192x8192 32) (main_v1 : IVec S8192x8192 32) (main_v4 : IVec S8192x8192 1) (main_v13 : IVec S_ 1) (main_v17 : IVec S_ 1) : IVec S_ 1 :=
  let main_v18 : IVec S_ 1 := andi main_v13 main_v17
  let main_c_4 : IVec S_ 32 := constantI S_ 32 0#32
  let main_v19 : IVec S8192 32 := broadcastInDim S8192 ![] bcast_S_S8192 main_c_4
  let main_v20 : IVec S8192 1 := cmpi .sge main_arg3 main_v19
  let main_c_5 : IVec S_ 32 := constantI S_ 32 8192#32
  let main_v21 : IVec S8192 32 := broadcastInDim S8192 ![] bcast_S_S8192 main_c_5
  let main_v22 : IVec S8192 1 := cmpi .slt main_arg3 main_v21
  let main_v23 : IVec S8192 1 := andi main_v20 main_v22
  let main_c_6 : IVec S_ 1 := constantI S_ 1 1#1
  let main_v24 : IVec S_ 1 := (fun x v => Host.reduce IntOp.andi x v reducesTo_S8192_S_d0 h_S_) main_v23 main_c_6
  let main_v25 : IVec S_ 1 := andi main_v18 main_v24
  let main_v26 : IVec S8192x8192 1 := cmpi .ne main_v0 main_v1
  let main_v27 : IVec S8192x8192 1 := ori main_v26 main_v4
  let main_c_7 : IVec S_ 1 := constantI S_ 1 1#1
  let main_v28 : IVec S_ 1 := (fun x v => Host.reduce IntOp.andi x v reducesTo_S8192x8192_S_d0_1 h_S_) main_v27 main_c_7
  let main_v29 : IVec S_ 1 := andi main_v25 main_v28
  main_v29

def fn {F : FTy → Type} [FloatOps F] (main_arg0 : FVec F S4096x1024 .f32) (main_arg1 : FVec F S8x1024x1024 .f32) (main_arg2 : IVec S8192 32) (main_arg3 : IVec S8192 32) (main_arg4 : IVec S512 32) (main_arg5 : IVec S8 32) (main_arg6 : FVec F S4096x2 .f32) : IVec S_ 1 :=
  let main_v0 : IVec S8192x8192 32 := broadcastInDim S8192x8192 ![0] bcast_S8192_S8192x8192_0 main_arg3
  let main_v1 : IVec S8192x8192 32 := broadcastInDim S8192x8192 ![1] bcast_S8192_S8192x8192_1 main_arg3
  let main_v2 : IVec S8192x8192 32 := iotaInDim S8192x8192 32 0
  let main_v3 : IVec S8192x8192 32 := iotaInDim S8192x8192 32 1
  let main_v4 : IVec S8192x8192 1 := cmpi .eq main_v2 main_v3
  let main_v5 : FVec F S4096x1024 .f32 := Host.absf main_arg0
  let main_cst : FVec F S_ .f32 := constant S_ .f32 0x7F800000#32
  let main_v6 : FVec F S4096x1024 .f32 := broadcastInDim S4096x1024 ![] bcast_S_S4096x1024 main_cst
  let main_v7 : IVec S4096x1024 1 := cmpf .olt main_v5 main_v6
  let main_c : IVec S_ 1 := constantI S_ 1 1#1
  let main_v8 : IVec S_ 1 := (fun x v => Host.reduce IntOp.andi x v reducesTo_S4096x1024_S_d0_1 h_S_) main_v7 main_c
  let main_v9 : FVec F S8x1024x1024 .f32 := Host.absf main_arg1
  let main_cst_0 : FVec F S_ .f32 := constant S_ .f32 0x7F800000#32
  let main_v10 : FVec F S8x1024x1024 .f32 := broadcastInDim S8x1024x1024 ![] bcast_S_S8x1024x1024 main_cst_0
  let main_v11 : IVec S8x1024x1024 1 := cmpf .olt main_v9 main_v10
  let main_c_1 : IVec S_ 1 := constantI S_ 1 1#1
  let main_v12 : IVec S_ 1 := (fun x v => Host.reduce IntOp.andi x v reducesTo_S8x1024x1024_S_d0_1_2 h_S_) main_v11 main_c_1
  let main_v13 : IVec S_ 1 := andi main_v8 main_v12
  let main_v14 : FVec F S4096x2 .f32 := Host.absf main_arg6
  let main_cst_2 : FVec F S_ .f32 := constant S_ .f32 0x7F800000#32
  let main_v15 : FVec F S4096x2 .f32 := broadcastInDim S4096x2 ![] bcast_S_S4096x2 main_cst_2
  let main_v16 : IVec S4096x2 1 := cmpf .olt main_v14 main_v15
  let main_c_3 : IVec S_ 1 := constantI S_ 1 1#1
  let main_v17 : IVec S_ 1 := (fun x v => Host.reduce IntOp.andi x v reducesTo_S4096x2_S_d0_1 h_S_) main_v16 main_c_3
  fn_part1 (F := F) main_arg3 main_v0 main_v1 main_v4 main_v13 main_v17
-- ==== Kernel.lean ====
abbrev S4096x1024 : Shape := ⟨2, ![4096, 1024]⟩
abbrev S8x1024x1024 : Shape := ⟨3, ![8, 1024, 1024]⟩
abbrev S8192 : Shape := ⟨1, ![8192]⟩
abbrev S512 : Shape := ⟨1, ![512]⟩
abbrev S8 : Shape := ⟨1, ![8]⟩
abbrev S4096x2 : Shape := ⟨2, ![4096, 2]⟩
abbrev S_ : Shape := ⟨0, ![]⟩
abbrev S8192x1 : Shape := ⟨2, ![8192, 1]⟩
abbrev S4096x2x1 : Shape := ⟨3, ![4096, 2, 1]⟩
abbrev S1x1x8 : Shape := ⟨3, ![1, 1, 8]⟩
abbrev S4096x2x8 : Shape := ⟨3, ![4096, 2, 8]⟩
abbrev S4096x8 : Shape := ⟨2, ![4096, 8]⟩
abbrev S1024x1024 : Shape := ⟨2, ![1024, 1024]⟩
abbrev S1x1024x1024 : Shape := ⟨3, ![1, 1024, 1024]⟩
abbrev S1024x8 : Shape := ⟨2, ![1024, 8]⟩
abbrev S1024 : Shape := ⟨1, ![1024]⟩
abbrev S1024x1 : Shape := ⟨2, ![1024, 1]⟩

abbrev nBuf : Space → Nat
  | .hbm => 31
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8192, .i32⟩
  | .hbm, ⟨3, _⟩ => ⟨S8192, .i32⟩
  | .hbm, ⟨4, _⟩ => ⟨S512, .i32⟩
  | .hbm, ⟨5, _⟩ => ⟨S8, .i32⟩
  | .hbm, ⟨6, _⟩ => ⟨S4096x2, .f32⟩
  | .hbm, ⟨7, _⟩ => ⟨S_, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192, .i32⟩
  | .hbm, ⟨18, _⟩ => ⟨S4096x2, .i32⟩
  | .hbm, ⟨19, _⟩ => ⟨S4096x2x1, .i32⟩
  | .hbm, ⟨20, _⟩ => ⟨S1x1x8, .i32⟩
  | .hbm, ⟨21, _⟩ => ⟨S4096x2x8, .i32⟩
  | .hbm, ⟨22, _⟩ => ⟨S4096x2x8, .i32⟩
  | .hbm, ⟨23, _⟩ => ⟨S4096x2x8, .i1⟩
  | .hbm, ⟨24, _⟩ => ⟨S4096x2x8, .f32⟩
  | .hbm, ⟨25, _⟩ => ⟨S4096x2x1, .f32⟩
  | .hbm, ⟨26, _⟩ => ⟨S4096x2x8, .f32⟩
  | .hbm, ⟨27, _⟩ => ⟨S4096x2x8, .f32⟩
  | .hbm, ⟨28, _⟩ => ⟨S_, .f32⟩
  | .hbm, ⟨29, _⟩ => ⟨S4096x8, .f32⟩
  | .hbm, ⟨30, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x8, .f32⟩
  | .local _ .vmem, ⟨5, _⟩ => ⟨S1024x8, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S4096x2 : S8192.ShapeCasts S4096x2
  bcast_S4096x2_S4096x2x1_0_1 : S4096x2.BroadcastsInDim S4096x2x1 (![0, 1] : Fin 2 → Fin S4096x2x1.rank)
  bcast_S4096x2x1_S4096x2x8_0_1_2 : S4096x2x1.BroadcastsInDim S4096x2x8 (![0, 1, 2] : Fin 3 → Fin S4096x2x8.rank)
  bcast_S1x1x8_S4096x2x8_0_1_2 : S1x1x8.BroadcastsInDim S4096x2x8 (![0, 1, 2] : Fin 3 → Fin S4096x2x8.rank)
  reducesTo_S4096x2x8_S4096x8_d1 : S4096x2x8.ReducesTo [1] S4096x8
  h_S_ : 0 < S_.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x8_d1_w32 : S1024x8.Iotas .tc 32 [1]
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  reduces_S1024x8_S1024 : S1024x8.Reduces [1] S1024
  shapeCasts_S1024_S1024x1 : S1024.ShapeCasts S1024x1
  shapeCasts_S1024x1024_S1024x1024 : S1024x1024.ShapeCasts S1024x1024
  broadcasts_S1024x1_S1024x1024 : S1024x1.Broadcasts S1024x1024
  scatter_S8192_S8192x1_S8192_n_0_0_1_wf : ScatterDims.WF S8192 S8192x1 S8192 [] [0] [0] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S4096x8.size a
  hwx0_2 : ∀ i : grid0.Coords, EltTy.bits .f32 = 32 ∨ (Rect.block (s := S4096x8) S1024x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)

variable [Facts₀]

def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S8x1024x1024 : Shape := ⟨3, ![8, 1024, 1024]⟩
abbrev S8192 : Shape := ⟨1, ![8192]⟩
abbrev S512 : Shape := ⟨1, ![512]⟩
abbrev S8 : Shape := ⟨1, ![8]⟩
abbrev S4096x2 : Shape := ⟨2, ![4096, 2]⟩
abbrev S_ : Shape := ⟨0, ![]⟩
abbrev S8192x1 : Shape := ⟨2, ![8192, 1]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 156
  | .vmem => 0
  | .smem => 0
  | _ => 0

abbrev hbmTy0_0 (i : Nat) : BufTy := match i % 128 with
  | 0 => ⟨S4096x1024, .f32⟩
  | 1 => ⟨S8x1024x1024, .f32⟩
  | 2 => ⟨S8192, .i32⟩
  | 3 => ⟨S8192, .i32⟩
  | 4 => ⟨S512, .i32⟩
  | 5 => ⟨S8, .i32⟩
  | 6 => ⟨S4096x2, .f32⟩
  | 7 => ⟨S_, .i32⟩
  | 8 => ⟨S_, .i32⟩
  | 9 => ⟨S8192, .i32⟩
  | 10 => ⟨S8192, .i32⟩
  | 11 => ⟨S8192, .i32⟩
  | 12 => ⟨S_, .i32⟩
  | 13 => ⟨S8192, .i32⟩
  | 14 => ⟨S8192, .i1⟩
  | 15 => ⟨S8192, .i32⟩
  | 16 => ⟨S8192, .i32⟩
  | 17 => ⟨S_, .i32⟩
  | 18 => ⟨S8192, .i32⟩
  | 19 => ⟨S8192, .i1⟩
  | 20 => ⟨S8192, .i1⟩
  | 21 => ⟨S_, .i32⟩
  | 22 => ⟨S8192, .i32⟩
  | 23 => ⟨S8192, .i32⟩
  | 24 => ⟨S8192, .i32⟩
  | 25 => ⟨S_, .i32⟩
  | 26 => ⟨S8192, .i32⟩
  | 27 => ⟨S8192, .i1⟩
  | 28 => ⟨S_, .i32⟩
  | 29 => ⟨S8192, .i32⟩
  | 30 => ⟨S8192, .i32⟩
  | 31 => ⟨S8192, .i32⟩
  | 32 => ⟨S8192x1, .i32⟩
  | 33 => ⟨S8192x1024, .f32⟩
  | 34 => ⟨S_, .f32⟩
  | 35 => ⟨S8192x1024, .f32⟩
  | 36 => ⟨S_, .i32⟩
  | 37 => ⟨S8192, .i32⟩
  | 38 => ⟨S8192, .i1⟩
  | 39 => ⟨S8192x1, .i1⟩
  | 40 => ⟨S_, .f32⟩
  | 41 => ⟨S8192x1024, .i1⟩
  | 42 => ⟨S8192x1024, .f32⟩
  | 43 => ⟨S8192x1024, .f32⟩
  | 44 => ⟨S1x1024x1024, .f32⟩
  | 45 => ⟨S1024x1024, .f32⟩
  | 46 => ⟨S8192x1024, .f32⟩
  | 47 => ⟨S8192x1024, .f32⟩
  | 48 => ⟨S_, .i32⟩
  | 49 => ⟨S8192, .i32⟩
  | 50 => ⟨S8192, .i1⟩
  | 51 => ⟨S8192x1, .i1⟩
  | 52 => ⟨S_, .f32⟩
  | 53 => ⟨S8192x1024, .i1⟩
  | 54 => ⟨S8192x1024, .f32⟩
  | 55 => ⟨S8192x1024, .f32⟩
  | 56 => ⟨S1x1024x1024, .f32⟩
  | 57 => ⟨S1024x1024, .f32⟩
  | 58 => ⟨S8192x1024, .f32⟩
  | 59 => ⟨S8192x1024, .f32⟩
  | 60 => ⟨S_, .i32⟩
  | 61 => ⟨S8192, .i32⟩
  | 62 => ⟨S8192, .i1⟩
  | 63 => ⟨S8192x1, .i1⟩
  | 64 => ⟨S_, .f32⟩
  | 65 => ⟨S8192x1024, .i1⟩
  | 66 => ⟨S8192x1024, .f32⟩
  | 67 => ⟨S8192x1024, .f32⟩
  | 68 => ⟨S1x1024x1024, .f32⟩
  | 69 => ⟨S1024x1024, .f32⟩
  | 70 => ⟨S8192x1024, .f32⟩
  | 71 => ⟨S8192x1024, .f32⟩
  | 72 => ⟨S_, .i32⟩
  | 73 => ⟨S8192, .i32⟩
  | 74 => ⟨S8192, .i1⟩
  | 75 => ⟨S8192x1, .i1⟩
  | 76 => ⟨S_, .f32⟩
  | 77 => ⟨S8192x1024, .i1⟩
  | 78 => ⟨S8192x1024, .f32⟩
  | 79 => ⟨S8192x1024, .f32⟩
  | 80 => ⟨S1x1024x1024, .f32⟩
  | 81 => ⟨S1024x1024, .f32⟩
  | 82 => ⟨S8192x1024, .f32⟩
  | 83 => ⟨S8192x1024, .f32⟩
  | 84 => ⟨S_, .i32⟩
  | 85 => ⟨S8192, .i32⟩
  | 86 => ⟨S8192, .i1⟩
  | 87 => ⟨S8192x1, .i1⟩
  | 88 => ⟨S_, .f32⟩
  | 89 => ⟨S8192x1024, .i1⟩
  | 90 => ⟨S8192x1024, .f32⟩
  | 91 => ⟨S8192x1024, .f32⟩
  | 92 => ⟨S1x1024x1024, .f32⟩
  | 93 => ⟨S1024x1024, .f32⟩
  | 94 => ⟨S8192x1024, .f32⟩
  | 95 => ⟨S8192x1024, .f32⟩
  | 96 => ⟨S_, .i32⟩
  | 97 => ⟨S8192, .i32⟩
  | 98 => ⟨S8192, .i1⟩
  | 99 => ⟨S8192x1, .i1⟩
  | 100 => ⟨S_, .f32⟩
  | 101 => ⟨S8192x1024, .i1⟩
  | 102 => ⟨S8192x1024, .f32⟩
  | 103 => ⟨S8192x1024, .f32⟩
  | 104 => ⟨S1x1024x1024, .f32⟩
  | 105 => ⟨S1024x1024, .f32⟩
  | 106 => ⟨S8192x1024, .f32⟩
  | 107 => ⟨S8192x1024, .f32⟩
  | 108 => ⟨S_, .i32⟩
  | 109 => ⟨S8192, .i32⟩
  | 110 => ⟨S8192, .i1⟩
  | 111 => ⟨S8192x1, .i1⟩
  | 112 => ⟨S_, .f32⟩
  | 113 => ⟨S8192x1024, .i1⟩
  | 114 => ⟨S8192x1024, .f32⟩
  | 115 => ⟨S8192x1024, .f32⟩
  | 116 => ⟨S1x1024x1024, .f32⟩
  | 117 => ⟨S1024x1024, .f32⟩
  | 118 => ⟨S8192x1024, .f32⟩
  | 119 => ⟨S8192x1024, .f32⟩
  | 120 => ⟨S_, .i32⟩
  | 121 => ⟨S8192, .i32⟩
  | 122 => ⟨S8192, .i1⟩
  | 123 => ⟨S8192x1, .i1⟩
  | 124 => ⟨S_, .f32⟩
  | 125 => ⟨S8192x1024, .i1⟩
  | 126 => ⟨S8192x1024, .f32⟩
  | 127 => ⟨S8192x1024, .f32⟩
  | _ => ⟨S4096x1024, .f32⟩

abbrev hbmTy0_1 (i : Nat) : BufTy := match i % 128 with
  | 0 => ⟨S1x1024x1024, .f32⟩
  | 1 => ⟨S1024x1024, .f32⟩
  | 2 => ⟨S8192x1024, .f32⟩
  | 3 => ⟨S8192x1024, .f32⟩
  | 4 => ⟨S8192, .f32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S8192, .f32⟩
  | 14 => ⟨S8192x1, .f32⟩
  | 15 => ⟨S_, .f32⟩
  | 16 => ⟨S4096x1024, .f32⟩
  | 17 => ⟨S8192x1024, .f32⟩
  | 18 => ⟨S8192x1024, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v0 : Ref sig .tc := ⟨.hbm, 24, rfl⟩
abbrev main_c_0 : Ref sig .tc := ⟨.hbm, 25, rfl⟩
abbrev main_v1 : Ref sig .tc := ⟨.hbm, 26, rfl⟩
abbrev main_v2 : Ref sig .tc := ⟨.hbm, 27, rfl⟩
abbrev main_c_1 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_5 : Ref sig .tc := ⟨.hbm, 52, rfl⟩
abbrev main_call2_v0 : Ref sig .tc := ⟨.hbm, 53, rfl⟩
abbrev main_call2_v1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_6 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_7 : Ref sig .tc := ⟨.hbm, 64, rfl⟩
abbrev main_call3_v0 : Ref sig .tc := ⟨.hbm, 65, rfl⟩
abbrev main_call3_v1 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_8 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_9 : Ref sig .tc := ⟨.hbm, 76, rfl⟩
abbrev main_call4_v0 : Ref sig .tc := ⟨.hbm, 77, rfl⟩
abbrev main_call4_v1 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_10 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_11 : Ref sig .tc := ⟨.hbm, 88, rfl⟩
abbrev main_call5_v0 : Ref sig .tc := ⟨.hbm, 89, rfl⟩
abbrev main_call5_v1 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_12 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_13 : Ref sig .tc := ⟨.hbm, 100, rfl⟩
abbrev main_call6_v0 : Ref sig .tc := ⟨.hbm, 101, rfl⟩
abbrev main_call6_v1 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_14 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_15 : Ref sig .tc := ⟨.hbm, 112, rfl⟩
abbrev main_call7_v0 : Ref sig .tc := ⟨.hbm, 113, rfl⟩
abbrev main_call7_v1 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_16 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_17 : Ref sig .tc := ⟨.hbm, 124, rfl⟩
abbrev main_call8_v0 : Ref sig .tc := ⟨.hbm, 125, rfl⟩
abbrev main_call8_v1 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_18 : Ref sig .tc := ⟨.hbm, 133, rfl⟩
abbrev main_v74 : Ref sig .tc := ⟨.hbm, 134, rfl⟩
abbrev main_v75 : Ref sig .tc := ⟨.hbm, 135, rfl⟩
abbrev main_c_19 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_20 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_c_21 : Ref sig .tc := ⟨.hbm, 147, rfl⟩
abbrev main_v85 : Ref sig .tc := ⟨.hbm, 148, rfl⟩
abbrev main_v86 : Ref sig .tc := ⟨.hbm, 149, rfl⟩
abbrev main_c_22 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  slices_S8x1024x1024_S1x1024x1024_0_0_0 : S8x1024x1024.Slices ![0, 0, 0] S1x1024x1024
  shapeCasts_S1x1024x1024_S1024x1024 : S1x1024x1024.ShapeCasts S1024x1024
  slices_S8x1024x1024_S1x1024x1024_1_0_0 : S8x1024x1024.Slices ![1, 0, 0] S1x1024x1024
  slices_S8x1024x1024_S1x1024x1024_2_0_0 : S8x1024x1024.Slices ![2, 0, 0] S1x1024x1024
  slices_S8x1024x1024_S1x1024x1024_3_0_0 : S8x1024x1024.Slices ![3, 0, 0] S1x1024x1024
  slices_S8x1024x1024_S1x1024x1024_4_0_0 : S8x1024x1024.Slices ![4, 0, 0] S1x1024x1024
  slices_S8x1024x1024_S1x1024x1024_5_0_0 : S8x1024x1024.Slices ![5, 0, 0] S1x1024x1024
  slices_S8x1024x1024_S1x1024x1024_6_0_0 : S8x1024x1024.Slices ![6, 0, 0] S1x1024x1024
  slices_S8x1024x1024_S1x1024x1024_7_0_0 : S8x1024x1024.Slices ![7, 0, 0] S1x1024x1024
  shapeCasts_S4096x2_S8192 : S4096x2.ShapeCasts S8192
  bcast_S_S4096x1024 : S_.BroadcastsInDim S4096x1024 (![] : Fin 0 → Fin S4096x1024.rank)
  gather_S4096x1024_S8192x1_S8192x1024_1_0_n_n_0_1_11024_wf : GatherDims.WF S4096x1024 S8192x1 S8192x1024 [1] [0] [] [0] [] 1 ![1, 1024]
  dot_S8192x1024_S1024x1024_S8192x1024_1_0_0_1_n_n_wf : DotDims.WF S8192x1024 S1024x1024 S8192x1024 [1] [0] [0] [1] [] []
  gather_S8192_S8192x1_S8192_n_0_n_n_0_1_1_wf : GatherDims.WF S8192 S8192x1 S8192 [] [0] [] [0] [] 1 ![1]
  scatter_S4096x1024_S8192x1_S8192x1024_1_0_0_1_wf : ScatterDims.WF S4096x1024 S8192x1 S8192x1024 [1] [0] [0] 1

variable [Facts₀]

def gather_S4096x1024_S8192x1_S8192x1024_1_0_n_n_0_1_11024 : GatherDims S4096x1024 S8192x1 S8192x1024 where
  offsetDims := [1]
  collapsedSliceDims := [0]
  operandBatchingDims := []
  startIndicesBatchingDims := []
  startIndexMap := [0]
  indexVectorDim := 1
  sliceSizes := ![1, 1024]
  wf := gather_S4096x1024_S8192x1_S8192x1024_1_0_n_n_0_1_11024_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S4096x1024_S8192x1_S8192x1024_1_0_0_1 : ScatterDims S4096x1024 S8192x1 S8192x1024 where
  updateWindowDims := [1]
  insertedWindowDims := [0]
  scatterDimsToOperandDims := [0]
  indexVectorDim := 1
  wf := scatter_S4096x1024_S8192x1_S8192x1024_1_0_0_1_wf

class Facts : Prop extends Facts₀ where

variable [Facts]
-- ==== Proof.Spec.lean ====
/-
  The mathematics both programs are read against, over plain index types; no program is imported.

  T = 4096 tokens, K = 2 fan-out entries per token, E = 8 experts, 1024 features in and out; the N = 8192 flat
  routing slots are numbered p = 2 t + k.  The argument `idx` lists the slots in expert-sorted order (row j of the
  scattered layout is slot `idx j`), `bin j` is the expert of row j.

  * the kernel side:  out[t,d] = sum_e (x[t] . W[e])[d] * tab[t,e]  with the per-expert gate table
    tab[t,e] = sum_k g[t,k] * [fe(2t+k) = e], where fe(p) is the expert the scatter-set leaves at slot p;
  * the reference side: out[t,d] = sum over the rows j whose slot belongs to token t of
    (sum_e sum_i [bin j = e] x[t,i] W[e,i,d]) * g[slot j].
  They agree when `idx` is a permutation of the slots (then fe(idx j) = bin j, and the rows of token t are the two
  rows naming slots 2t and 2t+1) and the float inputs are real numbers (the products distribute over the sums).
-/
import Idealize.ShloMosaic.PureOps.Ideal
import Idealize.ShloMosaic.Lib.ValueIdx

noncomputable section

open Idealize.ShloMosaic Idealize.ShloMosaic.ValueIdx

namespace Cert.Spec

abbrev SX : Shape := ⟨2, ![4096, 1024]⟩
abbrev SW : Shape := ⟨3, ![8, 1024, 1024]⟩
abbrev SN : Shape := ⟨1, ![8192]⟩
abbrev SG : Shape := ⟨2, ![4096, 2]⟩
abbrev ST : Shape := ⟨2, ![4096, 8]⟩

/-- The flat routing slot `2 t + k` of token `t`'s fan-out entry `k`. -/
def slotOf (t : Fin 4096) (k : Fin 2) : Fin 8192 := ⟨2 * t.val + k.val, by omega⟩

/-- The slot row `j`'s index word names (the word read as a natural number; it is that number when the word is in range). -/
def slot (idx : IVec SN 32) (j : Fin 8192) : Fin 8192 := ⟨(idx (ix1 j)).toNat % 8192, Nat.mod_lt _ (by decide)⟩

/-- The token row `j`'s slot belongs to: slot `p` is entry `p % 2` of token `p / 2`. -/
def tokOf (idx : IVec SN 32) (j : Fin 8192) : Fin 4096 := ⟨(slot idx j).val / 2, by have := (slot idx j).isLt; omega⟩

/-- The fan-out entry row `j`'s slot is. -/
def entOf (idx : IVec SN 32) (j : Fin 8192) : Fin 2 := ⟨(slot idx j).val % 2, Nat.mod_lt _ (by decide)⟩

/-- Every index word is a slot number (read signed), and no two rows name the same slot: `idx` is a permutation of the slots. -/
structure Perm (idx : IVec SN 32) : Prop where
  range : ∀ j : Fin 8192, 0 ≤ (idx (ix1 j)).toInt ∧ (idx (ix1 j)).toInt < 8192
  inj : ∀ i j : Fin 8192, idx (ix1 i) = idx (ix1 j) → i = j

/-- Every entry is a real number. -/
def Finite {s : Shape} (x : s.Idx → EReal) : Prop := ∀ i, ∃ r : ℝ, x i = (r : EReal)

/-- `(x[t] . W[e])[d]`: token `t`'s row through expert `e`'s matrix, at output column `d`. -/
def proj (x : SX.Idx → EReal) (w : SW.Idx → EReal) (t : Fin 4096) (e : Fin 8) (d : Fin 1024) : EReal :=
  ∑ i : Fin 1024, x (ix2 t i) * w (ix3 e i d)

/-- The per-expert gate table: the gates of token `t`'s entries whose slot holds expert `e`. -/
def tabOf (fe : Fin 8192 → BitVec 32) (g : SG.Idx → EReal) (t : Fin 4096) (e : Fin 8) : EReal :=
  ∑ k : Fin 2, g (ix2 t k) * (if fe (slotOf t k) = BitVec.ofNat 32 e.val then (1 : EReal) else 0)

/-- The kernel's result: every expert's projection of the token, weighted by the table. -/
def kerOut (x : SX.Idx → EReal) (w : SW.Idx → EReal) (tab : ST.Idx → EReal) (t : Fin 4096) (d : Fin 1024) : EReal :=
  ∑ e : Fin 8, proj x w t e d * tab (ix2 t e)

/-- Row `j` of the reference's grouped product, at column `d`: the row's token `tk` masked to the row's expert, through every expert's matrix. -/
def refRow (x : SX.Idx → EReal) (w : SW.Idx → EReal) (bin : IVec SN 32) (j : Fin 8192) (tk : Fin 4096) (d : Fin 1024) : EReal :=
  ∑ e : Fin 8, ∑ i : Fin 1024, (if bin (ix1 j) = BitVec.ofNat 32 e.val then x (ix2 tk i) else 0) * w (ix3 e i d)

/-- The reference's result: the gated rows whose slot belongs to token `t`, added up. -/
def refOut (x : SX.Idx → EReal) (w : SW.Idx → EReal) (bin idx : IVec SN 32) (g : SG.Idx → EReal) (t : Fin 4096) (d : Fin 1024) : EReal :=
  ∑ j ∈ Finset.univ.filter (fun j : Fin 8192 => tokOf idx j = t),
    refRow x w bin j (tokOf idx j) d * g (ix2 (tokOf idx j) (entOf idx j))

end Cert.Spec

end
-- ==== Proof.Algebra.lean ====
import proofs.«416535_j66271345377806_2_alg».proof.Proof.Spec
import Idealize.ShloMosaic.PureOps.Ideal
import Idealize.ShloMosaic.Lib.ValueIdx
import Mathlib.Data.EReal.Basic
import Mathlib.Data.Fintype.Card
import Mathlib.Algebra.BigOperators.Group.Finset.Basic
import Mathlib.Algebra.BigOperators.Fin

noncomputable section

open Idealize.ShloMosaic Idealize.ShloMosaic.ValueIdx

namespace Cert.Spec

/-! ### Real numbers inside the extended reals -/

/-- A finite sum of real numbers, read in the extended reals, is the sum of the readings. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between two real numbers, read in the extended reals, is the choice between the readings. -/
private theorem coe_ite (c : Prop) [Decidable c] (a b : ℝ) :
    ((if c then a else b : ℝ) : EReal) = if c then (a : EReal) else (b : EReal) := by
  split <;> rfl

/-! ### The index words are a bijection of the slots -/

/-- A 32-bit word whose signed reading lies in [0, 8192) has that same unsigned reading. -/
private theorem word_toNat_lt {v : BitVec 32} (h0 : 0 ≤ v.toInt) (h1 : v.toInt < 8192) : v.toNat < 8192 := by
  have h := BitVec.toInt_eq_toNat_cond v
  have hlt := v.isLt
  split at h <;> omega

/-- Two rows naming the same slot carry the same word, hence are the same row. -/
private theorem slot_injective {idx : IVec SN 32} (hp : Perm idx) : Function.Injective (slot idx) := by
  intro i j hij
  apply hp.inj
  apply BitVec.eq_of_toNat_eq
  have hi := word_toNat_lt (hp.range i).1 (hp.range i).2
  have hj := word_toNat_lt (hp.range j).1 (hp.range j).2
  have h : (idx (ix1 i)).toNat % 8192 = (idx (ix1 j)).toNat % 8192 := congrArg Fin.val hij
  omega

/-- The token of a slot: slot p is an entry of token p / 2. -/
private def tokP (p : Fin 8192) : Fin 4096 := ⟨p.val / 2, by have := p.isLt; omega⟩

/-- The fan-out entry of a slot: slot p is entry p % 2 of its token. -/
private def entP (p : Fin 8192) : Fin 2 := ⟨p.val % 2, Nat.mod_lt _ (by decide)⟩

private theorem tokP_slotOf (t : Fin 4096) (k : Fin 2) : tokP (slotOf t k) = t := by
  apply Fin.ext
  have := k.isLt
  simp only [tokP, slotOf]
  omega

private theorem entP_slotOf (t : Fin 4096) (k : Fin 2) : entP (slotOf t k) = k := by
  apply Fin.ext
  have := k.isLt
  simp only [entP, slotOf]
  omega

/-- Summing over the rows whose slot belongs to token t a quantity that depends on the row through its slot only
    is summing that quantity over the slots of token t: the rows are re-indexed along the bijection row -> slot. -/
private theorem sum_rows_eq_sum_slots {idx : IVec SN 32} (hp : Perm idx) (t : Fin 4096) (G : Fin 8192 → ℝ) :
    ∑ j ∈ Finset.univ.filter (fun j : Fin 8192 => tokOf idx j = t), G (slot idx j)
      = ∑ p ∈ Finset.univ.filter (fun p : Fin 8192 => tokP p = t), G p := by
  have hb : Function.Bijective (slot idx) := (slot_injective hp).bijective_of_finite
  rw [Finset.sum_filter, Finset.sum_filter]
  exact hb.sum_comp (fun p => if tokP p = t then G p else 0)

/-- The slots of token t are exactly 2 t and 2 t + 1, so a sum over them is a sum over the two fan-out entries. -/
private theorem sum_token_slots (t : Fin 4096) (G : Fin 8192 → ℝ) :
    ∑ p ∈ Finset.univ.filter (fun p : Fin 8192 => tokP p = t), G p = ∑ k : Fin 2, G (slotOf t k) := by
  have hset : Finset.univ.filter (fun p : Fin 8192 => tokP p = t) = {slotOf t 0, slotOf t 1} := by
    ext p
    simp only [Finset.mem_filter, Finset.mem_univ, true_and, Finset.mem_insert, Finset.mem_singleton,
      tokP, slotOf, Fin.ext_iff, Fin.val_zero, Fin.val_one]
    omega
  have hne : slotOf t 0 ≠ slotOf t 1 := by
    simp [slotOf, Fin.ext_iff]
  rw [hset, Finset.sum_pair hne, Fin.sum_univ_two]

/-! ### The identity over the real numbers -/

/-- Distributing each expert's projection over its gate-table entry and exchanging the sums over experts and over
    fan-out entries: the indicator of "entry k holds expert e" moves from the gate onto the token's row. -/
private theorem real_identity {E I K : Type} [Fintype E] [Fintype I] [Fintype K]
    (a : I → ℝ) (b : E → I → ℝ) (c : K → ℝ) (P : K → E → Prop) [∀ k e, Decidable (P k e)] :
    ∑ e, (∑ i, a i * b e i) * (∑ k, c k * (if P k e then (1 : ℝ) else 0)) =
    ∑ k, (∑ e, ∑ i, (if P k e then a i else 0) * b e i) * c k := by
  calc ∑ e, (∑ i, a i * b e i) * (∑ k, c k * (if P k e then (1 : ℝ) else 0))
      = ∑ e, ∑ k, (∑ i, a i * b e i) * (c k * (if P k e then (1 : ℝ) else 0)) := by
        refine Finset.sum_congr rfl fun e _ => ?_
        rw [Finset.mul_sum]
    _ = ∑ k, ∑ e, (∑ i, a i * b e i) * (c k * (if P k e then (1 : ℝ) else 0)) := Finset.sum_comm
    _ = ∑ k, (∑ e, ∑ i, (if P k e then a i else 0) * b e i) * c k := by
        refine Finset.sum_congr rfl fun k _ => ?_
        rw [Finset.sum_mul]
        refine Finset.sum_congr rfl fun e _ => ?_
        by_cases h : P k e
        · simp [h]
        · simp [h]

/-- The gated row of the reference written as a function of the slot alone: the row of slot p is its token's row
    masked to the expert the slot holds, through every expert's matrix, times the slot's gate. -/
private def rowAt (xr : SX.Idx → ℝ) (wr : SW.Idx → ℝ) (gr : SG.Idx → ℝ) (fe : Fin 8192 → BitVec 32)
    (d : Fin 1024) (p : Fin 8192) : ℝ :=
  (∑ e : Fin 8, ∑ i : Fin 1024, (if fe p = BitVec.ofNat 32 e.val then xr (ix2 (tokP p) i) else 0) * wr (ix3 e i d))
    * gr (ix2 (tokP p) (entP p))

/-- The two readings agree when `idx` is a permutation of the slots, `fe` is its scatter-set inverse image of `bin`,
    `tab` the gate table of `fe`, and the float inputs are real numbers. -/
theorem kerOut_eq_refOut (x : SX.Idx → EReal) (w : SW.Idx → EReal) (bin idx : IVec SN 32) (g : SG.Idx → EReal)
    (fe : Fin 8192 → BitVec 32) (tab : ST.Idx → EReal)
    (hp : Perm idx) (hfe : ∀ j : Fin 8192, fe (slot idx j) = bin (ix1 j))
    (htab : ∀ (t : Fin 4096) (e : Fin 8), tab (ix2 t e) = tabOf fe g t e)
    (hx : Finite x) (hw : Finite w) (hg : Finite g) (t : Fin 4096) (d : Fin 1024) :
    kerOut x w tab t d = refOut x w bin idx g t d := by
  -- every float entry is a real number
  choose xr hxr using hx
  choose wr hwr using hw
  choose gr hgr using hg
  -- the kernel's result is the reading of a real number
  have hK : kerOut x w tab t d =
      ((∑ e : Fin 8, (∑ i : Fin 1024, xr (ix2 t i) * wr (ix3 e i d)) *
        (∑ k : Fin 2, gr (ix2 t k) * (if fe (slotOf t k) = BitVec.ofNat 32 e.val then (1 : ℝ) else 0)) : ℝ) : EReal) := by
    simp only [kerOut, proj, htab, tabOf, hxr, hwr, hgr, coe_sum, EReal.coe_mul, coe_ite, EReal.coe_one,
      EReal.coe_zero]
  -- so is the reference's
  have hR : refOut x w bin idx g t d =
      ((∑ j ∈ Finset.univ.filter (fun j : Fin 8192 => tokOf idx j = t),
          (∑ e : Fin 8, ∑ i : Fin 1024,
              (if bin (ix1 j) = BitVec.ofNat 32 e.val then xr (ix2 (tokOf idx j) i) else 0) * wr (ix3 e i d))
            * gr (ix2 (tokOf idx j) (entOf idx j)) : ℝ) : EReal) := by
    simp only [refOut, refRow, hxr, hwr, hgr, coe_sum, EReal.coe_mul, coe_ite, EReal.coe_zero]
  rw [hK, hR, EReal.coe_eq_coe_iff]
  -- over the reals: distribute and exchange the sums on the kernel side
  refine (real_identity (fun i => xr (ix2 t i)) (fun e i => wr (ix3 e i d)) (fun k => gr (ix2 t k))
    (fun k e => fe (slotOf t k) = BitVec.ofNat 32 e.val)).trans ?_
  -- on the reference side: each row depends on its slot only (the slot's expert is the row's expert),
  -- the rows of token t re-index to the slots of token t, and those are its two fan-out entries
  have hrow : ∀ j : Fin 8192,
      (∑ e : Fin 8, ∑ i : Fin 1024,
          (if bin (ix1 j) = BitVec.ofNat 32 e.val then xr (ix2 (tokOf idx j) i) else 0) * wr (ix3 e i d))
        * gr (ix2 (tokOf idx j) (entOf idx j)) = rowAt xr wr gr fe d (slot idx j) := by
    intro j
    unfold rowAt
    rw [hfe j]
    rfl
  have hent : ∀ k : Fin 2,
      (∑ e : Fin 8, ∑ i : Fin 1024,
          (if fe (slotOf t k) = BitVec.ofNat 32 e.val then xr (ix2 t i) else 0) * wr (ix3 e i d))
        * gr (ix2 t k) = rowAt xr wr gr fe d (slotOf t k) := by
    intro k
    unfold rowAt
    rw [tokP_slotOf, entP_slotOf]
  rw [Finset.sum_congr rfl (fun j _ => hrow j), sum_rows_eq_sum_slots hp, sum_token_slots]
  exact Finset.sum_congr rfl (fun k _ => hent k)

end Cert.Spec

end
-- ==== Proof.PreDecode.lean ====
import proofs.«416535_j66271345377806_2_alg».proof.Pre_finite_inputs
import proofs.«416535_j66271345377806_2_alg».proof.Proof.Gen.Pre_finite_inputs
import proofs.«416535_j66271345377806_2_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreDecode

open Cert.Pre_finite_inputs

/-- The scalar shape has one index. -/
private instance : Subsingleton S_.Idx := ⟨fun a b => funext fun d => d.elim0⟩

/-- An extended real whose absolute value (the larger of it and its negation) lies strictly below the pattern of +infinity is a real number:
    at either infinity the larger of the two is +infinity itself. -/
private theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  induction a using EReal.rec with
  | bot => simp [Ideal.cmp] at h
  | coe r => exact ⟨r, rfl⟩
  | top => simp [Ideal.cmp] at h

/-- The index vector laid along the first axis of the square reads, at (i, j), the vector at i. -/
private theorem bcast_axis0 (hb : S8192.BroadcastsInDim S8192x8192 (![0] : Fin 1 → Fin S8192x8192.rank)) (v : IVec S8192 32)
    (i j : Fin 8192) : broadcastInDim S8192x8192 ![0] hb v (ix2 i j) = v (ix1 i) := by
  simp only [broadcastInDim]
  congr 1
  funext a
  have ha : a = 0 := Subsingleton.elim _ _
  subst ha
  apply Fin.ext
  split
  · next h1 => change 8192 = 1 at h1; omega
  · rfl

/-- The index vector laid along the second axis of the square reads, at (i, j), the vector at j. -/
private theorem bcast_axis1 (hb : S8192.BroadcastsInDim S8192x8192 (![1] : Fin 1 → Fin S8192x8192.rank)) (v : IVec S8192 32)
    (i j : Fin 8192) : broadcastInDim S8192x8192 ![1] hb v (ix2 i j) = v (ix1 j) := by
  simp only [broadcastInDim]
  congr 1
  funext a
  have ha : a = 0 := Subsingleton.elim _ _
  subst ha
  apply Fin.ext
  split
  · next h1 => change 8192 = 1 at h1; omega
  · rfl

/-- Two positions below 8192 with the same 32-bit word are the same position. -/
private theorem pos_eq_of_word_eq (i j : Fin 8192) (h : BitVec.ofNat 32 i.val = BitVec.ofNat 32 j.val) : i = j := by
  have h' := congrArg BitVec.toNat h
  simp only [BitVec.toNat_ofNat] at h'
  have hi := i.isLt
  have hj := j.isLt
  apply Fin.ext
  omega

/-- What the precondition says of the arguments: `idx` is a permutation of the slots, and the three float arrays hold real numbers. -/
theorem of_pre [Cert.Pre_finite_inputs.Facts] (x : FVec Ideal S4096x1024 .f32) (w : FVec Ideal S8x1024x1024 .f32) (bin idx : IVec S8192 32)
    (a4 : IVec S512 32) (a5 : IVec S8 32) (g : FVec Ideal S4096x2 .f32)
    (h : Cert.Pre_finite_inputs.fn (F := Ideal) x w bin idx a4 a5 g = fun _ => 1#1) :
    Cert.Spec.Perm idx ∧ Cert.Spec.Finite (s := S4096x1024) x ∧ Cert.Spec.Finite (s := S8x1024x1024) w ∧ Cert.Spec.Finite (s := S4096x2) g := by
  have h0 := congrFun h ValueIdx.ix0
  dsimp only [Cert.Pre_finite_inputs.fn, Cert.Pre_finite_inputs.fn_part1] at h0
  -- the result is the conjunction of five scalars
  obtain ⟨h1234, hpair⟩ := IntOp.andi_eq_one.1 h0
  obtain ⟨h123, hrange⟩ := IntOp.andi_eq_one.1 h1234
  obtain ⟨h12, hg⟩ := IntOp.andi_eq_one.1 h123
  obtain ⟨hx, hw⟩ := IntOp.andi_eq_one.1 h12
  refine ⟨⟨?_, ?_⟩, ?_, ?_, ?_⟩
  · -- every index word, read signed, is at least 0 and below 8192
    intro j
    have hj := Host.reduce_andi_all _ _ _ _ ix0 hrange (ix1 j)
    obtain ⟨hge, hlt⟩ := IntOp.andi_eq_one.1 hj
    have hge' : (0#32 : BitVec 32).toInt ≤ (idx (ix1 j)).toInt := IntOp.cmpi_sge.1 hge
    have hlt' : (idx (ix1 j)).toInt < (8192#32 : BitVec 32).toInt := IntOp.cmpi_slt.1 hlt
    have e0 : (0#32 : BitVec 32).toInt = 0 := by decide
    have e1 : (8192#32 : BitVec 32).toInt = 8192 := by decide
    rw [e0] at hge'
    rw [e1] at hlt'
    exact ⟨hge', hlt'⟩
  · -- two rows with the same word: the pairwise test at (i, j) leaves only i = j
    intro i j hij
    have hp := Host.reduce_andi_all _ _ _ _ ix0 hpair (ix2 i j)
    rcases IntOp.ori_eq_one.1 hp with hne | heq
    · have hne' := IntOp.cmpi_ne.1 hne
      rw [bcast_axis0, bcast_axis1] at hne'
      exact absurd hij hne'
    · exact pos_eq_of_word_eq i j (IntOp.cmpi_eq.1 heq)
  · intro i
    exact real_of_abs_lt_inf (x i) (Host.reduce_andi_all _ _ _ _ ix0 hx i)
  · intro i
    exact real_of_abs_lt_inf (w i) (Host.reduce_andi_all _ _ _ _ ix0 hw i)
  · intro i
    exact real_of_abs_lt_inf (g i) (Host.reduce_andi_all _ _ _ _ ix0 hg i)

end Cert.PreDecode

end
-- ==== Proof.ScatterSet.lean ====
import proofs.«416535_j66271345377806_2_alg».proof.KernelIdeal
import proofs.«416535_j66271345377806_2_alg».proof.Proof.Gen.KernelIdeal
import proofs.«416535_j66271345377806_2_alg».proof.Proof.Spec
import Idealize.ShloMosaic.Lib.ValueIdx

noncomputable section

open Idealize.ShloMosaic Idealize.ShloMosaic.TcCoe Idealize.SL.Sem Idealize.ShloMosaic.ValueIdx

namespace Cert.KernelIdeal.Table

open Cert.KernelIdeal Cert.KernelIdeal.Facts₀ Cert.KernelIdeal.Facts

/-- The index words with a negative word moved up by the number of slots (jnp's wrap of a negative index). -/
def wrapIdx (idx : IVec S8192 32) : IVec S8192 32 :=
  select (cmpi .slt idx (broadcastInDim S8192 ![] bcast_S_S8192 (constantI S_ 32 0#32)))
    (addi idx (broadcastInDim S8192 ![] bcast_S_S8192 (constantI S_ 32 8192#32))) idx

/-- The expert of every slot, as the host's scatter-set leaves it: zero, overwritten by `bin j` at slot `idx j`. -/
def feVec (bin idx : IVec S8192 32) : IVec S8192 32 :=
  Host.scatter scatter_S8192_S8192x1_S8192_n_0_0_1 (fun _ b => b)
    (broadcastInDim S8192 ![] bcast_S_S8192 (constantI S_ 32 0#32))
    (broadcastInDim S8192x1 ![0] bcast_S8192_S8192x1_0 (wrapIdx idx)) bin

/-- The expert at slot `p`. -/
def fe (bin idx : IVec S8192 32) (p : Fin 8192) : BitVec 32 := feVec bin idx (ix1 p)

/-- A word the precondition puts in range reads the same signed and unsigned, below the number of slots. -/
private theorem word_in_range (x : BitVec 32) (h0 : 0 ≤ x.toInt) (h1 : x.toInt < 8192) :
    x.toInt = (x.toNat : Int) ∧ x.toNat < 8192 := by
  have hc := BitVec.toInt_eq_toNat_cond x
  have hlt := x.isLt
  split at hc <;> omega

/-- Under the range condition no word is negative, so the wrap of negative words changes nothing. -/
private theorem wrapIdx_eq (idx : IVec S8192 32) (hp : Cert.Spec.Perm idx) : wrapIdx idx = idx := by
  funext i
  obtain ⟨k, rfl⟩ : ∃ k : Fin 8192, i = ix1 k := ⟨i 0, eq_ix1 (n := 8192) i⟩
  unfold wrapIdx
  rw [select_apply]
  have hc : cmpi .slt idx (broadcastInDim S8192 ![] bcast_S_S8192 (constantI S_ 32 0#32)) (ix1 k) = 0#1 := by
    show BitVec.ofBool (decide ((idx (ix1 k)).toInt < (0#32).toInt)) = 0#1
    rw [decide_eq_false (by have := (hp.range k).1; simpa using this)]
    rfl
  rw [hc, select_zero]

/-- A left fold of overwrites leaves a position alone when no element of the list writes it. -/
private theorem foldl_untouched {ι κ β : Type} (key : ι → Option κ) (step : (κ → β) → ι → (κ → β)) (k₀ : κ)
    (hmiss : ∀ r n, key n ≠ some k₀ → step r n k₀ = r k₀) :
    ∀ (l : List ι) (r : κ → β), (∀ b ∈ l, key b ≠ some k₀) → l.foldl step r k₀ = r k₀
  | [], r, _ => rfl
  | a :: l, r, h => by
      rw [List.foldl_cons, foldl_untouched key step k₀ hmiss l (step r a) (fun b hb => h b (List.mem_cons_of_mem _ hb)),
        hmiss r a (h a List.mem_cons_self)]

/-- A left fold of last-writer-wins overwrites along a list without repeats, in which `n₀` is the only element
    writing position `k₀`, leaves there the value `n₀` writes. -/
private theorem foldl_last_writer {ι κ β : Type} (key : ι → Option κ) (val : ι → β) (step : (κ → β) → ι → (κ → β)) (k₀ : κ)
    (hhit : ∀ r n, key n = some k₀ → step r n k₀ = val n)
    (hmiss : ∀ r n, key n ≠ some k₀ → step r n k₀ = r k₀) (n₀ : ι) (hk : key n₀ = some k₀) :
    ∀ (l : List ι) (r : κ → β), l.Nodup → (∀ b ∈ l, key b = some k₀ → b = n₀) → n₀ ∈ l → l.foldl step r k₀ = val n₀
  | [], r, _, _, hmem => absurd hmem List.not_mem_nil
  | a :: l, r, hnd, hinj, hmem => by
      rw [List.foldl_cons]
      rcases List.mem_cons.mp hmem with rfl | hmem'
      · have hnot : n₀ ∉ l := (List.nodup_cons.mp hnd).1
        rw [foldl_untouched key step k₀ hmiss l _ (fun b hb hkb => hnot (hinj b (List.mem_cons_of_mem _ hb) hkb ▸ hb)),
          hhit r n₀ hk]
      · exact foldl_last_writer key val step k₀ hhit hmiss n₀ hk l (step r a) (List.nodup_cons.mp hnd).2
          (fun b hb => hinj b (List.mem_cons_of_mem _ hb)) hmem'

/-- The update of row `i` lands at the slot its index word names: the start is the word read signed, in range. -/
private theorem resultIdx_row (idx : IVec S8192 32) (hp : Cert.Spec.Perm idx) (i : Fin 8192) :
    scatter_S8192_S8192x1_S8192_n_0_0_1.resultIdx? (ix1 i) (broadcastInDim S8192x1 ![0] bcast_S8192_S8192x1_0 idx)
      = some (ix1 (Cert.Spec.slot idx i)) := by
  obtain ⟨hint, hlt⟩ := word_in_range (idx (ix1 i)) (hp.range i).1 (hp.range i).2
  have hstart : ∀ a : Fin 1, scatter_S8192_S8192x1_S8192_n_0_0_1.start (ix1 i)
      (broadcastInDim S8192x1 ![0] bcast_S8192_S8192x1_0 idx) a = (idx (ix1 i)).toInt := by
    intro a
    obtain rfl : a = 0 := Subsingleton.elim _ _
    unfold ScatterDims.start
    rw [dif_pos (show (0 : Fin 1) ∈ scatter_S8192_S8192x1_S8192_n_0_0_1.scatterDimsToOperandDims from
      List.mem_singleton.mpr rfl)]
    show (idx _).toInt = (idx (ix1 i)).toInt
    congr 2
    funext b
    obtain rfl : b = 0 := Subsingleton.elim _ _
    rfl
  have hwin : ∀ a : Fin 1, scatter_S8192_S8192x1_S8192_n_0_0_1.window (u := S8192) (ix1 i) a = 0 := by
    intro a
    obtain rfl : a = 0 := Subsingleton.elim _ _
    rfl
  unfold ScatterDims.resultIdx?
  rw [dif_pos (by
    intro a
    rw [hstart a, hwin a, hint]
    obtain rfl : a = 0 := Subsingleton.elim _ _
    show (0 : Int) ≤ _ ∧ _ < ((8192 : Nat) : Int)
    omega)]
  congr 1
  funext a
  obtain rfl : a = 0 := Subsingleton.elim _ _
  refine Fin.ext ?_
  show (scatter_S8192_S8192x1_S8192_n_0_0_1.start (ix1 i) (broadcastInDim S8192x1 ![0] bcast_S8192_S8192x1_0 idx) 0
    + (scatter_S8192_S8192x1_S8192_n_0_0_1.window (u := S8192) (ix1 i) 0 : Int)).toNat = (idx (ix1 i)).toNat % 8192
  rw [hstart 0, hwin 0, hint]
  omega

/-- Rows naming the same slot carry the same index word: in range the word is its slot number. -/
private theorem slot_word (idx : IVec S8192 32) (hp : Cert.Spec.Perm idx) (a b : Fin 8192)
    (h : Cert.Spec.slot idx a = Cert.Spec.slot idx b) : idx (ix1 a) = idx (ix1 b) := by
  obtain ⟨_, ha⟩ := word_in_range (idx (ix1 a)) (hp.range a).1 (hp.range a).2
  obtain ⟨_, hb⟩ := word_in_range (idx (ix1 b)) (hp.range b).1 (hp.range b).2
  have hv : (idx (ix1 a)).toNat % 8192 = (idx (ix1 b)).toNat % 8192 := congrArg Fin.val h
  apply BitVec.eq_of_toNat_eq
  omega

/-- Every update index is a row, and lands at the slot that row names. -/
private theorem resultIdx_any (idx : IVec S8192 32) (hp : Cert.Spec.Perm idx) (m : S8192.Idx) :
    scatter_S8192_S8192x1_S8192_n_0_0_1.resultIdx? m (broadcastInDim S8192x1 ![0] bcast_S8192_S8192x1_0 idx)
      = some (ix1 (Cert.Spec.slot idx (m 0))) := by
  obtain ⟨i, rfl⟩ : ∃ i : Fin 8192, m = ix1 i := ⟨m 0, eq_ix1 (n := 8192) m⟩
  exact resultIdx_row idx hp i

/-- Two update indices landing at the same slot are the same row. -/
private theorem resultIdx_inj (idx : IVec S8192 32) (hp : Cert.Spec.Perm idx) (m : S8192.Idx) (j : Fin 8192)
    (h : scatter_S8192_S8192x1_S8192_n_0_0_1.resultIdx? m (broadcastInDim S8192x1 ![0] bcast_S8192_S8192x1_0 idx)
      = some (ix1 (Cert.Spec.slot idx j))) : m = ix1 j := by
  obtain ⟨i, rfl⟩ : ∃ i : Fin 8192, m = ix1 i := ⟨m 0, eq_ix1 (n := 8192) m⟩
  rw [resultIdx_row idx hp i] at h
  have hs : Cert.Spec.slot idx i = Cert.Spec.slot idx j := congrFun (Option.some.inj h) 0
  rw [hp.inj i j (slot_word idx hp i j hs)]

/-- Under a permutation the scatter-set inverts it: the slot row `j` names holds row `j`'s expert. -/
theorem fe_spec (bin idx : IVec S8192 32) (hp : Cert.Spec.Perm idx) (j : Fin 8192) :
    fe bin idx (Cert.Spec.slot idx j) = bin (ix1 j) := by
  unfold fe feVec
  rw [wrapIdx_eq idx hp]
  unfold Host.scatter
  -- the fold over the update indices in row-major order: row `j` is the only writer of the slot it names
  refine (foldl_last_writer
    (fun n : Fin S8192.numel => scatter_S8192_S8192x1_S8192_n_0_0_1.resultIdx? (S8192.rowMajor.symm n)
      (broadcastInDim S8192x1 ![0] bcast_S8192_S8192x1_0 idx))
    (fun n : Fin S8192.numel => bin (S8192.rowMajor.symm n)) _
    (ix1 (Cert.Spec.slot idx j)) ?_ ?_ (S8192.rowMajor (ix1 j)) ?_ _ _ (List.nodup_finRange _) ?_
    (List.mem_finRange _)).trans ?_
  · intro r n h
    simp only [resultIdx_any idx hp (S8192.rowMajor.symm n)] at h ⊢
    rw [if_pos (Option.some.inj h).symm]
  · intro r n hne
    simp only [resultIdx_any idx hp (S8192.rowMajor.symm n)] at hne ⊢
    rw [if_neg (fun e => hne (congrArg some e.symm))]
  · show scatter_S8192_S8192x1_S8192_n_0_0_1.resultIdx? (S8192.rowMajor.symm (S8192.rowMajor (ix1 j))) _ = _
    rw [Equiv.symm_apply_apply]
    exact resultIdx_row idx hp j
  · intro b _ hb
    exact (Equiv.symm_apply_eq _).mp (resultIdx_inj idx hp _ j hb)
  · show bin (S8192.rowMajor.symm (S8192.rowMajor (ix1 j))) = bin (ix1 j)
    rw [Equiv.symm_apply_apply]

end Cert.KernelIdeal.Table

end
-- ==== Proof.KerTable.lean ====
import proofs.«416535_j66271345377806_2_alg».proof.Proof.Gen.KernelIdeal.Frame
import proofs.«416535_j66271345377806_2_alg».proof.Proof.ScatterSet
import proofs.«416535_j66271345377806_2_alg».proof.Proof.Spec
import Idealize.ShloMosaic.Lib.ValueIdx
import Idealize.ShloMosaic.Lib.StableHlo.Run
import Idealize.ShloMosaic.Lib.IdealHost
import Idealize.ShloMosaic.Lib.Pipeline.Value
import Idealize.ShloMosaic.Lib.StableHlo.Predicate

noncomputable section

open Idealize.ShloMosaic Idealize.ShloMosaic.TcCoe Idealize.SL.Sem Idealize.ShloMosaic.ValueIdx

namespace Cert.KernelIdeal.Table

open Cert.KernelIdeal Cert.KernelIdeal.Gen

/-! ## The table as a term

The host computes the table in three stretches before the launch: the scatter-set of the experts into the slots
and its reshape to [4096,2]; the one-hot of that against the expert numbers 0..7 on a new last axis; the gates
broadcast along that axis, multiplied by the one-hot and summed over the fan-out axis. -/

set_option maxHeartbeats 400000 in
attribute [local irreducible] Host.scatter Host.reduceAdd in
/-- The table's array is the sum over the fan-out axis of the broadcast gates times the one-hot of the reshaped
    scatter-set result against the iota of the experts. The scatter-set is kept as one opaque array. -/
private theorem tab_term (m : (ℓ : Loc nD τ sig) → Buf (Elt Ideal) ℓ) (c : Dev nD) :
    (V m c main_v13 : S4096x8.Idx → EReal)
      = Host.reduceAdd
          (mulf
            (broadcastInDim S4096x2x8 ![0, 1, 2] Facts₀.bcast_S4096x2x1_S4096x2x8_0_1_2
              (broadcastInDim S4096x2x1 ![0, 1] Facts₀.bcast_S4096x2_S4096x2x1_0_1 (m ((c : Thread nD τ).loc main_arg6))))
            (uitofp .f32
              (cmpi .eq
                (broadcastInDim S4096x2x8 ![0, 1, 2] Facts₀.bcast_S4096x2x1_S4096x2x8_0_1_2
                  (broadcastInDim S4096x2x1 ![0, 1] Facts₀.bcast_S4096x2_S4096x2x1_0_1
                    (shapeCast S4096x2 (feVec (m ((c : Thread nD τ).loc main_arg2)) (m ((c : Thread nD τ).loc main_arg3)))
                      Facts₀.shapeCasts_S8192_S4096x2)))
                (broadcastInDim S4096x2x8 ![0, 1, 2] Facts₀.bcast_S1x1x8_S4096x2x8_0_1_2 (iotaInDim S1x1x8 32 2)))))
          (constant (F := Ideal) S_ .f32 0x00000000#32) Facts₀.reducesTo_S4096x2x8_S4096x8_d1 Facts₀.h_S_ := by
  dsimp only [Gen.V]
  simp only [Gen.hostOps0, Gen.hostOps0_1, Gen.hostOps0_2, List.flatten_cons, List.flatten_nil, List.append_nil,
    List.cons_append, List.nil_append]
  after_results_simp
  rfl

/-! ## The term read at an index -/

/-- The two broadcasts [4096,2] → [4096,2,1] → [4096,2,8] read at (t, k, e) give the operand at (t, k): the new
    last axis is not read. -/
private theorem bcast_tk_apply {α : Type} (x : S4096x2.Idx → α) (t : Fin 4096) (k : Fin 2) (e : Fin 8) :
    broadcastInDim S4096x2x8 ![0, 1, 2] Facts₀.bcast_S4096x2x1_S4096x2x8_0_1_2
        (broadcastInDim S4096x2x1 ![0, 1] Facts₀.bcast_S4096x2_S4096x2x1_0_1 x) (ix3 t k e) = x (ix2 t k) := by
  rw [broadcastInDim_apply _ _ _ _ (ix3 t k (0 : Fin 1)) (fun a => by fin_cases a <;> rfl)]
  rw [broadcastInDim_apply _ _ _ _ (ix2 t k) (fun a => by fin_cases a <;> rfl)]

/-- The iota on the last axis of [1,1,8] broadcast to [4096,2,8] read at (t, k, e) is the word of e. -/
private theorem bcast_iota_apply (t : Fin 4096) (k : Fin 2) (e : Fin 8) :
    broadcastInDim S4096x2x8 ![0, 1, 2] Facts₀.bcast_S1x1x8_S4096x2x8_0_1_2 (iotaInDim S1x1x8 32 2) (ix3 t k e)
      = BitVec.ofNat 32 e.val := by
  rw [broadcastInDim_apply _ _ _ _ (ix3 (0 : Fin 1) (0 : Fin 1) e) (fun a => by fin_cases a <;> rfl)]
  rfl

/-- A flat array of 8192 entries reshaped to [4096,2] read at (t, k) is the entry at slot 2 t + k: both have
    row-major position 2 t + k. -/
private theorem reshape_slot_apply {α : Type} (v : S8192.Idx → α) (t : Fin 4096) (k : Fin 2) :
    shapeCast S4096x2 v Facts₀.shapeCasts_S8192_S4096x2 (ix2 t k) = v (ix1 (Cert.Spec.slotOf t k)) := by
  refine shapeCast_apply _ _ _ _ ?_
  rw [Shape.rowMajor_val_one, Shape.rowMajor_val_two]
  show (Cert.Spec.slotOf t k).val = t.val * 2 + k.val
  unfold Cert.Spec.slotOf
  show 2 * t.val + k.val = t.val * 2 + k.val
  omega

/-- The table's term read at (t, e), for any gates g and any slot words v. The sum over the fan-out axis from
    the zero initial value is the sum over k : Fin 2 of the summand at (t, k, e); the summand is the gate g[t,k]
    times the equality bit of the word at slot 2 t + k against the word of e, read as the number 1 or 0. -/
private theorem tab_read (g : S4096x2.Idx → EReal) (v : IVec S8192 32) (t : Fin 4096) (e : Fin 8) :
    (Host.reduceAdd
        (mulf
          (broadcastInDim S4096x2x8 ![0, 1, 2] Facts₀.bcast_S4096x2x1_S4096x2x8_0_1_2
            (broadcastInDim S4096x2x1 ![0, 1] Facts₀.bcast_S4096x2_S4096x2x1_0_1 g))
          (uitofp .f32
            (cmpi .eq
              (broadcastInDim S4096x2x8 ![0, 1, 2] Facts₀.bcast_S4096x2x1_S4096x2x8_0_1_2
                (broadcastInDim S4096x2x1 ![0, 1] Facts₀.bcast_S4096x2_S4096x2x1_0_1
                  (shapeCast S4096x2 v Facts₀.shapeCasts_S8192_S4096x2)))
              (broadcastInDim S4096x2x8 ![0, 1, 2] Facts₀.bcast_S1x1x8_S4096x2x8_0_1_2 (iotaInDim S1x1x8 32 2)))))
        (constant (F := Ideal) S_ .f32 0x00000000#32) Facts₀.reducesTo_S4096x2x8_S4096x8_d1 Facts₀.h_S_
          : S4096x8.Idx → EReal) (ix2 t e)
      = ∑ k : Fin 2, g (ix2 t k) * (if v (ix1 (Cert.Spec.slotOf t k)) = BitVec.ofNat 32 e.val then (1 : EReal) else 0) := by
  have hR : Shape.Reduces S4096x2x8 [1] S4096x8 := by decide
  rw [hostReduceAdd_apply, Ideal.hostReduceAdd_single _ hR]
  show Ideal.ofBits .f32 0x00000000#32 + _ = _
  rw [Ideal.ofBits_zero_f32, zero_add]
  refine Finset.sum_congr rfl fun (k : Fin 2) _ => ?_
  -- the index over (t, e) with k inserted on the summed axis is (t, k, e)
  have hl : hR.lift (ix2 t e) k = ix3 t k e := by
    funext a; fin_cases a <;> rfl
  rw [hl, mulf_apply, bcast_tk_apply]
  congr 1
  show FloatOps.uitofp (F := Ideal) .f32 (IntOp.cmpi .eq _ _) = _
  rw [bcast_tk_apply, bcast_iota_apply, reshape_slot_apply]
  by_cases h : v (ix1 (Cert.Spec.slotOf t k)) = BitVec.ofNat 32 e.val
  · rw [if_pos h, StableHlo.Predicate.cmpi_eq_iff.mpr h]
    show (((1#1 : BitVec 1).toNat : ℝ) : EReal) = 1
    norm_num
  · rw [if_neg h, eq_zero_of_ne_one (fun h1 => h (StableHlo.Predicate.cmpi_eq_iff.mp h1))]
    show (((0#1 : BitVec 1).toNat : ℝ) : EReal) = 0
    norm_num

/-- The table the region finds in its third window is the per-expert gate table of the scatter-set's slots. -/
theorem V_tab (m : (ℓ : Loc nD τ sig) → Buf (Elt Ideal) ℓ) (c : Dev nD) (t : Fin 4096) (e : Fin 8) :
    (V m c main_v13 : S4096x8.Idx → EReal) (ix2 t e)
      = Cert.Spec.tabOf (fe (m ((c : Thread nD τ).loc main_arg2)) (m ((c : Thread nD τ).loc main_arg3)))
          (m ((c : Thread nD τ).loc main_arg6)) t e := by
  rw [tab_term m c]
  unfold Cert.Spec.tabOf fe
  exact tab_read _ _ t e

end Cert.KernelIdeal.Table

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.KerValue.lean ====
/-
  The kernel's result read at one entry. The grid has 4 row blocks of 1024 tokens times 8 experts, point
  n = 8 q + e. The output block of row block q is zeroed at e = 0, and every point adds to it, at (r, d),

      (sum over i of x[1024 q + r, i] * W[e, i, d]) * tab[1024 q + r, e],

  the second factor being the lane sum of the table block masked to lane e. After the eight points of the row
  block the entry holds the eight addends added up, and with t = 1024 q + r that is
  sum over e of (x[t] . W[e])[d] * tab[t, e].
-/
import proofs.«416535_j66271345377806_2_alg».proof.Proof.Gen.KernelIdeal.Value
import proofs.«416535_j66271345377806_2_alg».proof.Proof.Spec
import proofs.«416535_j66271345377806_2_alg».proof.Proof.LibRowDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.KerValue

open Cert.KernelIdeal Cert.KernelIdeal.Gen

/-! ## One point's arithmetic, read at an entry -/

/-- The block product: row p of the left block against column q of the right one. -/
theorem mm_apply (l r : FVec Ideal S1024x1024 .bf16) (p q : Fin 1024) :
    (matmul (F := Ideal) dot_S1024x1024_S1024x1024_S1024x1024_1_0_0_1_n_n none l r (constant (F := Ideal) S1024x1024 .f32 0x00000000#32) : S1024x1024.Idx → EReal) (ix2 p q)
      = ∑ k : Fin 1024, l (ix2 p k) * r (ix2 k q) := by
  refine (Ideal.matmul_constant_zero_apply dot_S1024x1024_S1024x1024_S1024x1024_1_0_0_1_n_n none l r (ix2 p q)).trans ?_
  exact Cert.LibRowDot.sum_contr_eq_rowDot dot_S1024x1024_S1024x1024_S1024x1024_1_0_0_1_n_n rfl rfl rfl rfl rfl rfl l r (ix2 p q)

/-- A column of 1024 entries laid out as a [1024, 1] array reads its entry p at (p, 0). -/
theorem col_cast_apply (x : S1024.Idx → EReal) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [1024, 1] column broadcast along 1024 columns reads, at (p, q), the column's entry p. -/
theorem col_bcast_apply (v : S1024x1.Idx → EReal) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The equality test of two words answers the bit 1 exactly when they are the same word. -/
theorem cmpi_eq_one_iff (a b : BitVec 32) : IntOp.cmpi .eq a b = 1#1 ↔ a = b := by
  show BitVec.ofBool (a == b) = 1#1 ↔ a = b
  by_cases h : a = b
  · subst h; rw [beq_self_eq_true]; exact ⟨fun _ => rfl, fun _ => rfl⟩
  · rw [show (a == b) = false from beq_false_of_ne h]; exact ⟨fun hh => absurd hh (by decide), fun hh => absurd hh h⟩

/-- One lane of the masked table row: the entry when the lane is the point's expert, zero otherwise. -/
theorem lane_term (i1 : ℕ) (e k : Fin 8) (he : i1 = e.val) (a : EReal) :
    Scalar.select (IntOp.cmpi .eq (BitVec.ofNat 32 k.val) (BitVec.ofNat 32 i1)) a (Ideal.ofBits .f32 0x00000000#32)
      = if k = e then a else 0 := by
  subst he
  by_cases h : k = e
  · subst h
    rw [(cmpi_eq_one_iff (BitVec.ofNat 32 k.val) (BitVec.ofNat 32 k.val)).mpr rfl, select_one, if_pos rfl]
  · have hc : ¬ IntOp.cmpi .eq (BitVec.ofNat 32 k.val) (BitVec.ofNat 32 e.val) = 1#1 := fun hc => h (Fin.ext (by
      have h1 := congrArg BitVec.toNat ((cmpi_eq_one_iff _ _).mp hc)
      simp only [BitVec.toNat_ofNat] at h1
      have := k.isLt; have := e.isLt
      omega))
    rw [eq_zero_of_ne_one hc, select_zero, if_neg h, Ideal.ofBits_zero_f32]

/-- The table block masked to one lane and summed along the lanes is the block's entry at that lane. -/
theorem lane_sum_apply (i1 : ℕ) (e : Fin 8) (he : i1 = e.val) (v12 : FVec Ideal S1024x8 .f32)
    (hφ : FKind.Formats .f32) (hacc : (0x00000000#32 : BitVec 32) = FKind.add.neutral .f32 hφ) (r : Fin 1024) :
    (multiReduction (F := Ideal) .add [1] S1024
        (select (cmpi .eq (iota .tc S1024x8 32 [1] iota_S1024x8_d1_w32) (broadcast S1024x8 (BitVec.ofNat 32 i1)))
          (shapeCast S1024x8 v12 shapeCasts_S1024x8_S1024x8) (broadcast S1024x8 (FloatOps.ofBits (F := Ideal) .f32 0x00000000#32)))
        0x00000000#32 reduces_S1024x8_S1024 hφ hacc : S1024.Idx → EReal) (ix1 r) = v12 (ix2 r e) := by
  refine (Ideal.multiReduction_add_single _ _ reduces_S1024x8_S1024 hφ hacc (ix1 r)).trans ?_
  have hl : ∀ k : Fin 8, reduces_S1024x8_S1024.lift (ix1 r) k = ix2 r k := fun k => funext fun a => Fin.ext (by
    match a with
    | ⟨0, _⟩ => rfl
    | ⟨1, _⟩ => rfl)
  show ∑ k : Fin 8, select (cmpi .eq (iota .tc S1024x8 32 [1] iota_S1024x8_d1_w32) (broadcast S1024x8 (BitVec.ofNat 32 i1)))
          (shapeCast S1024x8 v12 shapeCasts_S1024x8_S1024x8) (broadcast S1024x8 (FloatOps.ofBits (F := Ideal) .f32 0x00000000#32))
          (reduces_S1024x8_S1024.lift (ix1 r) k) = _
  have ht : ∀ k : Fin 8, select (cmpi .eq (iota .tc S1024x8 32 [1] iota_S1024x8_d1_w32) (broadcast S1024x8 (BitVec.ofNat 32 i1)))
          (shapeCast S1024x8 v12 shapeCasts_S1024x8_S1024x8) (broadcast S1024x8 (FloatOps.ofBits (F := Ideal) .f32 0x00000000#32))
          (reduces_S1024x8_S1024.lift (ix1 r) k) = if k = e then v12 (ix2 r k) else 0 := fun k => by
    rw [hl k]
    show Scalar.select (IntOp.cmpi .eq (iota .tc S1024x8 32 [1] iota_S1024x8_d1_w32 (ix2 r k)) (BitVec.ofNat 32 i1))
        (shapeCast S1024x8 v12 shapeCasts_S1024x8_S1024x8 (ix2 r k)) (Ideal.ofBits .f32 0x00000000#32) = _
    rw [iota_single_apply .tc S1024x8 32 1 iota_S1024x8_d1_w32 (ix2 r k), shapeCast_self]
    exact lane_term i1 e k he _
  rw [Finset.sum_congr rfl fun k _ => ht k, Finset.sum_ite_eq' Finset.univ e fun k => v12 (ix2 r k), if_pos (Finset.mem_univ e)]

/-- What one grid point leaves at (r, d) of the output block: what was there, plus row r of the token block against
    column d of the expert's matrix, times the table block's entry at row r and the point's expert. -/
theorem pay2_apply (i : grid0.Coords) (v3 : Vec Ideal S1024x1024 .f32) (v5 : Vec Ideal S1x1024x1024 .f32) (v12 : Vec Ideal S1024x8 .f32) (v18 : Vec Ideal S1024x1024 .f32) (e : Fin 8) (he : (i 1).val = e.val) (r d : Fin 1024) :
    (k0_pay2 (F := Ideal) i v3 v5 v12 v18 : S1024x1024.Idx → EReal) (ix2 r d)
      = v18 (ix2 r d) + (∑ k : Fin 1024, v3 (ix2 r k) * v5 (ix3 (0 : Fin 1) k d)) * v12 (ix2 r e) := by
  unfold k0_pay2
  dsimp only
  refine (addf_apply _ _ _).trans ?_
  refine congrArg₂ (· + ·) ?_ ?_
  · exact congrFun (shapeCast_self v18 _) _
  · refine (mulf_apply _ _ _).trans ?_
    refine congrArg₂ (· * ·) ?_ ?_
    · refine (mm_apply _ _ r d).trans ?_
      refine Finset.sum_congr rfl fun k _ => ?_
      exact congrArg₂ (· * ·) rfl (shapeCast_1ab_ab_apply v5 _ k d)
    · refine (col_bcast_apply _ _ r d).trans ?_
      refine (col_cast_apply _ _ r 0).trans ?_
      exact lane_sum_apply (i 1).val e he v12 _ _ r

section Blocks

/-! ## The window blocks, read where the grid point puts them -/

/-- The printed index maps and the grid's second coordinate, decided once over the grid's 32 points: point n is
    (row block n / 8, expert n % 8); x and the table are staged by row block, the weights by expert. -/
theorem grid_facts : ∀ t : Fin cfg0.N,
    (grid0.coords t 1).val = t.val % 8
    ∧ win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 2) = t.val / 8 ∧ win0_2.index t (1 : Fin 2) = 0 :=
  (by decide +kernel : ∀ t : Fin grid0.N, _)

variable (m : (ℓ : Loc nD τ sig) → Buf (Elt Ideal) ℓ)

/-- The block of token rows at a grid point. -/
abbrev xblk (c : Dev nD) (t : Fin cfg0.N) : Vec Ideal S1024x1024 .f32 := iblk m c 0 t
/-- The expert's matrix at a grid point. -/
abbrev wblk (c : Dev nD) (t : Fin cfg0.N) : Vec Ideal S1x1024x1024 .f32 := iblk m c 1 t
/-- The block of table rows at a grid point. -/
abbrev gblk (c : Dev nD) (t : Fin cfg0.N) : Vec Ideal S1024x8 .f32 := iblk m c 2 t

/-- Row r of the token block at a point of row block q is token 1024 q + r. -/
theorem xblk_apply (c : Dev nD) (t : Fin cfg0.N) (q : Fin 4) (hq : t.val / 8 = q.val) (r k : Fin 1024) :
    xblk m c t (ix2 r k)
      = (m ((c : Thread nD τ).loc main_arg0) : S4096x1024.Idx → EReal) (ix2 (⟨1024 * q.val + r.val, by omega⟩ : Fin 4096) k) := by
  obtain ⟨-, h0, h1, -⟩ := grid_facts t
  unfold xblk iblk
  rw [View.read_apply]
  show V m c main_arg0 _ = _
  rw [V_main_arg0]
  refine congrArg _ (funext fun a => Fin.ext ?_)
  match a with
  | ⟨0, _⟩ => show win0_0.index t 0 * 1024 + 1 * r.val = 1024 * q.val + r.val; rw [h0]; omega
  | ⟨1, _⟩ => show win0_0.index t 1 * 1024 + 1 * k.val = k.val; rw [h1]; omega

/-- The weight block at a point of expert e is expert e's matrix. -/
theorem wblk_apply (c : Dev nD) (t : Fin cfg0.N) (e : Fin 8) (he : t.val % 8 = e.val) (k d : Fin 1024) :
    wblk m c t (ix3 (0 : Fin 1) k d)
      = (m ((c : Thread nD τ).loc main_arg1) : S8x1024x1024.Idx → EReal) (ix3 e k d) := by
  obtain ⟨-, -, -, h0, h1, h2, -⟩ := grid_facts t
  unfold wblk iblk
  rw [View.read_apply]
  show V m c main_arg1 _ = _
  rw [V_main_arg1]
  refine congrArg _ (funext fun a => Fin.ext ?_)
  match a with
  | ⟨0, _⟩ => show win0_1.index t 0 * 1 + 1 * 0 = e.val; rw [h0]; omega
  | ⟨1, _⟩ => show win0_1.index t 1 * 1024 + 1 * k.val = k.val; rw [h1]; omega
  | ⟨2, _⟩ => show win0_1.index t 2 * 1024 + 1 * d.val = d.val; rw [h2]; omega

/-- Row r of the table block at a point of row block q is the table's row 1024 q + r. -/
theorem gblk_apply (c : Dev nD) (t : Fin cfg0.N) (q : Fin 4) (hq : t.val / 8 = q.val) (r : Fin 1024) (e : Fin 8) :
    gblk m c t (ix2 r e)
      = (V m c main_v13 : S4096x8.Idx → EReal) (ix2 (⟨1024 * q.val + r.val, by omega⟩ : Fin 4096) e) := by
  obtain ⟨-, -, -, -, -, -, h0, h1⟩ := grid_facts t
  unfold gblk iblk
  rw [View.read_apply]
  show V m c main_v13 _ = _
  refine congrArg _ (funext fun a => Fin.ext ?_)
  match a with
  | ⟨0, _⟩ => show win0_2.index t 0 * 1024 + 1 * r.val = 1024 * q.val + r.val; rw [h0]; omega
  | ⟨1, _⟩ => show win0_2.index t 1 * 8 + 1 * e.val = e.val; rw [h1]; omega

/-! ## The fold over a row block's eight points -/

/-- What the point of expert e adds at row r, column d of row block q: token 1024 q + r's projection through
    expert e's matrix, times the table's entry for that token and expert. -/
def addendAt (x : S4096x1024.Idx → EReal) (w : S8x1024x1024.Idx → EReal) (tab : S4096x8.Idx → EReal)
    (q : Fin 4) (e : Fin 8) (r d : Fin 1024) : EReal :=
  Cert.Spec.proj x w (⟨1024 * q.val + r.val, by omega⟩ : Fin 4096) e d
    * tab (ix2 (⟨1024 * q.val + r.val, by omega⟩ : Fin 4096) e)

/-- A point past the run's first adds its addend to what the point before left. -/
theorem step_apply (c : Dev nD) (q : Fin 4) (n : ℕ) (h : n < cfg0.N) (hn : n / 8 = q.val)
    (acc : Vec Ideal S1024x1024 .f32) (r d : Fin 1024) :
    (Value.step3 m c n h acc : S1024x1024.Idx → EReal) (ix2 r d)
      = acc (ix2 r d) + addendAt (m ((c : Thread nD τ).loc main_arg0)) (m ((c : Thread nD τ).loc main_arg1)) (V m c main_v13)
          q ⟨n % 8, Nat.mod_lt _ (by decide)⟩ r d := by
  obtain ⟨hc, -⟩ := grid_facts ⟨n, h⟩
  show (k0_pay2 (F := Ideal) (grid0.coords ⟨n, h⟩) (xblk m c ⟨n, h⟩) (wblk m c ⟨n, h⟩) (gblk m c ⟨n, h⟩) acc : S1024x1024.Idx → EReal) (ix2 r d) = _
  refine (pay2_apply (grid0.coords ⟨n, h⟩) (xblk m c ⟨n, h⟩) (wblk m c ⟨n, h⟩) (gblk m c ⟨n, h⟩) acc
    ⟨n % 8, Nat.mod_lt _ (by decide)⟩ hc r d).trans ?_
  refine congrArg (acc (ix2 r d) + ·) ?_
  unfold addendAt Cert.Spec.proj
  exact congrArg₂ (· * ·)
    (Finset.sum_congr rfl fun k _ => congrArg₂ (· * ·) (xblk_apply m c ⟨n, h⟩ q hn r k)
      (wblk_apply m c ⟨n, h⟩ ⟨n % 8, Nat.mod_lt _ (by decide)⟩ rfl k d))
    (gblk_apply m c ⟨n, h⟩ q hn r ⟨n % 8, Nat.mod_lt _ (by decide)⟩)

/-- The run's first point stores zero and then adds its addend. -/
theorem reset_apply (c : Dev nD) (q : Fin 4) (n : ℕ) (h : n < cfg0.N) (hn : n / 8 = q.val) (r d : Fin 1024) :
    (Value.reset3 m c n h : S1024x1024.Idx → EReal) (ix2 r d)
      = 0 + addendAt (m ((c : Thread nD τ).loc main_arg0)) (m ((c : Thread nD τ).loc main_arg1)) (V m c main_v13)
          q ⟨n % 8, Nat.mod_lt _ (by decide)⟩ r d := by
  have hz : (k0_pay1 (F := Ideal) : S1024x1024.Idx → EReal) (ix2 r d) = 0 := by
    unfold k0_pay1
    exact Ideal.ofBits_zero_f32
  exact (step_apply m c q n h hn (k0_pay1 (F := Ideal)) r d).trans (congrArg (· + _) hz)

/-- After the eight points of row block q the output block holds, at (r, d), the eight experts' addends added up. -/
theorem fold_apply (c : Dev nD) (q : Fin 4) (h : 8 * q.val + 7 < cfg0.N) (r d : Fin 1024) :
    (Pipeline.accAt (Value.reset3 m c) (Value.step3 m c) (8 * q.val) 7 h : S1024x1024.Idx → EReal) (ix2 r d)
      = ∑ e : Fin 8, addendAt (m ((c : Thread nD τ).loc main_arg0)) (m ((c : Thread nD τ).loc main_arg1)) (V m c main_v13) q e r d := by
  have key := Pipeline.accAt_add_apply (ι := S1024x1024.Idx) (β := EReal) (Value.reset3 m c) (Value.step3 m c) (fun _ => 0)
      (fun n j => addendAt (m ((c : Thread nD τ).loc main_arg0)) (m ((c : Thread nD τ).loc main_arg1)) (V m c main_v13)
        q ⟨n % 8, Nat.mod_lt _ (by decide)⟩ ⟨(j 0).val, idx2_lt0 j⟩ ⟨(j 1).val, idx2_lt1 j⟩) (8 * q.val) 7
      (fun hb i => by
        obtain ⟨r, d, rfl⟩ : ∃ (r d : Fin 1024), i = ix2 r d := ⟨i 0, i 1, eq_ix2 i⟩
        exact reset_apply m c q (8 * q.val) hb (by omega) r d)
      (fun n hn acc i h1 h2 => by
        obtain ⟨r, d, rfl⟩ : ∃ (r d : Fin 1024), i = ix2 r d := ⟨i 0, i 1, eq_ix2 i⟩
        exact step_apply m c q n hn (by omega) acc r d)
      7 (le_refl 7) h (ix2 r d)
  refine key.trans ?_
  rw [zero_add, Finset.sum_range]
  exact Finset.sum_congr rfl fun e _ => congrArg
    (fun z => addendAt (m ((c : Thread nD τ).loc main_arg0)) (m ((c : Thread nD τ).loc main_arg1)) (V m c main_v13) q z r d)
    (Fin.ext (by show (8 * q.val + e.val) % 8 = e.val; have := e.isLt; omega))

end Blocks

/-! ## The array's entry -/

/-- What the kernel leaves at row `t`, column `d`: the eight experts' projections of token `t`, each weighted by its
    entry of the table the region found, added up in the experts' order. -/
theorem G3_apply (m : (ℓ : Loc nD τ sig) → Buf (Elt Ideal) ℓ) (c : Dev nD) (t : Fin 4096) (d : Fin 1024) :
    (Cert.KernelIdeal.Value.G3 (F := Ideal) m c : S4096x1024.Idx → EReal) (ix2 t d)
      = Cert.Spec.kerOut (m ((c : Thread nD τ).loc main_arg0)) (m ((c : Thread nD τ).loc main_arg1))
          (V m c main_v13) t d := by
  have hN : cfg0.N = 32 := N_0
  have ht : t.val < 4096 := t.isLt
  have hd : d.val < 1024 := d.isLt
  have hr : Value.run3Of (ix2 t d) = t.val / 1024 := by
    show 1 * (t.val / 1024 - 0) + 1 * (d.val / 1024 - 0) = _
    have : d.val / 1024 = 0 := by omega
    omega
  have hl : Value.loc3Of (ix2 t d) = ix2 (⟨t.val % 1024, Nat.mod_lt _ (by decide)⟩ : Fin 1024) d :=
    funext fun a => Fin.ext (by
      match a with
      | ⟨0, _⟩ => rfl
      | ⟨1, _⟩ => show d.val % 1024 = d.val; omega)
  unfold Value.G3
  rw [dif_pos (by rw [hr, hN]; omega), hl]
  have e : ∀ (b : ℕ) (h : b + 7 < cfg0.N) (q : Fin 4) (h' : 8 * q.val + 7 < cfg0.N), b = 8 * q.val →
      Pipeline.accAt (Value.reset3 m c) (Value.step3 m c) b 7 h = Pipeline.accAt (Value.reset3 m c) (Value.step3 m c) (8 * q.val) 7 h' := by
    intro b h q h' hb; subst hb; rfl
  rw [e _ _ (⟨t.val / 1024, by omega⟩ : Fin 4) (by rw [hN]; show 8 * (t.val / 1024) + 7 < 32; omega) (by rw [hr])]
  refine (fold_apply m c _ _ _ d).trans ?_
  unfold Cert.Spec.kerOut addendAt
  have ht' : (⟨1024 * (t.val / 1024) + t.val % 1024, by omega⟩ : Fin 4096) = t := Fin.ext (by show 1024 * (t.val / 1024) + t.val % 1024 = t.val; omega)
  exact Finset.sum_congr rfl fun e _ => by rw [ht']

end Cert.KernelIdeal.KerValue

end
-- ==== Proof.RefFun.lean ====
import proofs.«416535_j66271345377806_2_alg».proof.ReferenceIdeal
import proofs.«416535_j66271345377806_2_alg».proof.Proof.Gen.ReferenceIdeal

noncomputable section

open Idealize.ShloMosaic

namespace Cert.ReferenceIdeal.RefFun

open Cert.ReferenceIdeal Cert.ReferenceIdeal.Facts₀ Cert.ReferenceIdeal.Facts

variable {F : FTy → Type} [FloatOps F]

/-- The floor of `a / c` elementwise, as the integer operations spell it: the truncating quotient, lowered by one
    where the signs of `a` and `c` differ and the remainder is not zero. -/
def floorDivide (a : IVec S8192 32) (c : IVec S_ 32) : IVec S8192 32 :=
  let v0 : IVec S_ 32 := id c
  let v1 : IVec S8192 32 := broadcastInDim S8192 ![] bcast_S_S8192 v0
  let v2 : IVec S8192 32 := Host.divsi a v1
  let v3 : IVec S8192 32 := signi a
  let v4 : IVec S_ 32 := signi v0
  let v5 : IVec S8192 32 := broadcastInDim S8192 ![] bcast_S_S8192 v4
  let v6 : IVec S8192 1 := cmpi .ne v3 v5
  let v7 : IVec S8192 32 := broadcastInDim S8192 ![] bcast_S_S8192 v0
  let v8 : IVec S8192 32 := Host.remsi a v7
  let c0 : IVec S_ 32 := constantI S_ 32 0#32
  let v9 : IVec S8192 32 := broadcastInDim S8192 ![] bcast_S_S8192 c0
  let v10 : IVec S8192 1 := cmpi .ne v8 v9
  let v11 : IVec S8192 1 := andi v6 v10
  let c1 : IVec S_ 32 := constantI S_ 32 1#32
  let v12 : IVec S8192 32 := broadcastInDim S8192 ![] bcast_S_S8192 c1
  let v13 : IVec S8192 32 := subi v2 v12
  select v11 v13 v2

/-- A negative index counted from the end: `a + n` where `a` is negative, `a` elsewhere. -/
def wrapNeg (n : BitVec 32) (a : IVec S8192 32) : IVec S8192 32 :=
  let c0 : IVec S_ 32 := constantI S_ 32 0#32
  let v1 : IVec S8192 32 := broadcastInDim S8192 ![] bcast_S_S8192 c0
  let v2 : IVec S8192 1 := cmpi .slt a v1
  let c1 : IVec S_ 32 := constantI S_ 32 n
  let v3 : IVec S8192 32 := broadcastInDim S8192 ![] bcast_S_S8192 c1
  let v4 : IVec S8192 32 := addi a v3
  select v2 v4 a

/-- The rows the column mask `m` keeps, the scalar `z` in every other row. -/
def whereRows (m : IVec S8192x1 1) (a : FVec F S8192x1024 .f32) (z : FVec F S_ .f32) : FVec F S8192x1024 .f32 :=
  let v0 : IVec S8192x1024 1 := broadcastInDim S8192x1024 ![0, 1] bcast_S8192x1_S8192x1024_0_1 m
  let v1 : FVec F S8192x1024 .f32 := broadcastInDim S8192x1024 ![] bcast_S_S8192x1024 z
  select v0 a v1

/-- One expert's step: the rows whose expert word is `k` (zero elsewhere) through the expert's matrix (the block of the
    weights at `off`), added to the running sum `acc`. -/
def expertStep (k : BitVec 32) (off : Fin 3 → Nat) (h : S8x1024x1024.Slices off S1x1024x1024) (bin : IVec S8192 32)
    (rows : FVec F S8192x1024 .f32) (w : FVec F S8x1024x1024 .f32) (acc : FVec F S8192x1024 .f32) :
    FVec F S8192x1024 .f32 :=
  let c : IVec S_ 32 := constantI S_ 32 k
  let v9 : IVec S8192 32 := broadcastInDim S8192 ![] bcast_S_S8192 c
  let v10 : IVec S8192 1 := cmpi .eq bin v9
  let v11 : IVec S8192x1 1 := broadcastInDim S8192x1 ![0] bcast_S8192_S8192x1_0 v10
  let cst : FVec F S_ .f32 := constant S_ .f32 0x00000000#32
  let v12 : FVec F S8192x1024 .f32 := whereRows v11 rows cst
  let v13 : FVec F S1x1024x1024 .f32 := extractStridedSlice S1x1024x1024 off w h
  let v14 : FVec F S1024x1024 .f32 := shapeCast S1024x1024 v13 shapeCasts_S1x1024x1024_S1024x1024
  let v15 : FVec F S8192x1024 .f32 := Host.dotGeneral dot_S8192x1024_S1024x1024_S8192x1024_1_0_0_1_n_n none v12 v14
  addf acc v15

/-- The reference's result as one pure function of its arguments: its operations composed in order. -/
def refFun (x : FVec F S4096x1024 .f32) (w : FVec F S8x1024x1024 .f32) (bin idx : IVec S8192 32) (g : FVec F S4096x2 .f32) :
    FVec F S4096x1024 .f32 :=
  let c : IVec S_ 32 := constantI S_ 32 2#32
  let v0 : IVec S8192 32 := floorDivide idx c
  let v5 : IVec S8192 32 := wrapNeg 4096#32 v0
  let v6 : IVec S8192x1 32 := broadcastInDim S8192x1 ![0] bcast_S8192_S8192x1_0 v5
  let v7 : FVec F S8192x1024 .f32 := Host.gather gather_S4096x1024_S8192x1_S8192x1024_1_0_n_n_0_1_11024 x v6
  let cst : FVec F S_ .f32 := constant S_ .f32 0x00000000#32
  let v8 : FVec F S8192x1024 .f32 := broadcastInDim S8192x1024 ![] bcast_S_S8192x1024 cst
  let v16 := expertStep 0#32 ![0, 0, 0] slices_S8x1024x1024_S1x1024x1024_0_0_0 bin v7 w v8
  let v24 := expertStep 1#32 ![1, 0, 0] slices_S8x1024x1024_S1x1024x1024_1_0_0 bin v7 w v16
  let v32 := expertStep 2#32 ![2, 0, 0] slices_S8x1024x1024_S1x1024x1024_2_0_0 bin v7 w v24
  let v40 := expertStep 3#32 ![3, 0, 0] slices_S8x1024x1024_S1x1024x1024_3_0_0 bin v7 w v32
  let v48 := expertStep 4#32 ![4, 0, 0] slices_S8x1024x1024_S1x1024x1024_4_0_0 bin v7 w v40
  let v56 := expertStep 5#32 ![5, 0, 0] slices_S8x1024x1024_S1x1024x1024_5_0_0 bin v7 w v48
  let v64 := expertStep 6#32 ![6, 0, 0] slices_S8x1024x1024_S1x1024x1024_6_0_0 bin v7 w v56
  let v72 := expertStep 7#32 ![7, 0, 0] slices_S8x1024x1024_S1x1024x1024_7_0_0 bin v7 w v64
  let v73 : FVec F S8192 .f32 := shapeCast S8192 g shapeCasts_S4096x2_S8192
  let v78 : IVec S8192 32 := wrapNeg 8192#32 idx
  let v79 : IVec S8192x1 32 := broadcastInDim S8192x1 ![0] bcast_S8192_S8192x1_0 v78
  let v80 : FVec F S8192 .f32 := Host.gather gather_S8192_S8192x1_S8192_n_0_n_n_0_1_1 v73 v79
  let v81 : FVec F S8192x1 .f32 := broadcastInDim S8192x1 ![0] bcast_S8192_S8192x1_0 v80
  let cst20 : FVec F S_ .f32 := constant S_ .f32 0x00000000#32
  let v82 : FVec F S4096x1024 .f32 := broadcastInDim S4096x1024 ![] bcast_S_S4096x1024 cst20
  let v83 : FVec F S8192x1024 .f32 := broadcastInDim S8192x1024 ![0, 1] bcast_S8192x1_S8192x1024_0_1 v81
  let v84 : FVec F S8192x1024 .f32 := mulf v72 v83
  let v89 : IVec S8192 32 := wrapNeg 4096#32 v0
  let v90 : IVec S8192x1 32 := broadcastInDim S8192x1 ![0] bcast_S8192_S8192x1_0 v89
  Host.scatterAdd scatter_S4096x1024_S8192x1_S8192x1024_1_0_0_1 v82 v90 v84

end Cert.ReferenceIdeal.RefFun

end
-- ==== Proof.RefOps.lean ====
import proofs.«416535_j66271345377806_2_alg».proof.ReferenceIdeal
import proofs.«416535_j66271345377806_2_alg».proof.Proof.Gen.ReferenceIdeal
import Idealize.ShloMosaic.Lib.StableHlo.Run

noncomputable section

open Idealize.ShloMosaic Idealize.ShloMosaic.TcCoe Idealize.SL.Sem

namespace Cert.ReferenceIdeal.RefRun

open Cert.ReferenceIdeal
open Cert.ReferenceIdeal.Facts₀

variable {F : FTy → Type} [FloatOps F]

/-- The reference's 149 operations in order, each outlined function's lines written out at its call over that call's
    buffers: the floor division of the slot numbers by two (sixteen lines and the select of its inner call), then per
    expert the mask, the three lines of the masked copy of the gathered rows, the expert's matrix and the product added
    on, then the gathered gates, the gated rows and their scatter-add into the zero array. -/
abbrev ops : List (HloOp τ sig (Elt F)) :=
  [ StableHlo.nullary main_c (constantI S_ 32 2#32),
    StableHlo.TRef.unary (.of main_c : StableHlo.TRef sig ⟨S_, .i32⟩) main_call0.v0 id,
    StableHlo.TRef.unary main_call0.v0 main_call0.v1 (broadcastInDim S8192 ![] bcast_S_S8192),
    StableHlo.TRef.binary (.of main_arg3 : StableHlo.TRef sig ⟨S8192, .i32⟩) main_call0.v1 main_call0.v2 Host.divsi,
    StableHlo.TRef.unary (.of main_arg3 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (.of main_arg3 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.nullary main_c_0 (constantI S_ 32 0#32),
    StableHlo.unary main_c_0 main_v1 (broadcastInDim S8192 ![] bcast_S_S8192 : (⟨S_, .i32⟩ : BufTy).Contents (Elt F) → (⟨S8192, .i32⟩ : BufTy).Contents (Elt F)),
    StableHlo.binary main_v0 main_v1 main_v2 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 4096#32),
    StableHlo.unary main_c_1 main_v3 (broadcastInDim S8192 ![] bcast_S_S8192 : (⟨S_, .i32⟩ : BufTy).Contents (Elt F) → (⟨S8192, .i32⟩ : BufTy).Contents (Elt F)),
    StableHlo.binary main_v0 main_v3 main_v4 (addi : (⟨S8192, .i32⟩ : BufTy).Contents (Elt F) → (⟨S8192, .i32⟩ : BufTy).Contents (Elt F) → (⟨S8192, .i32⟩ : BufTy).Contents (Elt F)),
    StableHlo.ternary main_v2 main_v4 main_v0 main_v5 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v5 main_v6 (broadcastInDim S8192x1 ![0] bcast_S8192_S8192x1_0 : (⟨S8192, .i32⟩ : BufTy).Contents (Elt F) → (⟨S8192x1, .i32⟩ : BufTy).Contents (Elt F)),
    StableHlo.binary main_arg0 main_v6 main_v7 ((fun x i => Host.gather gather_S4096x1024_S8192x1_S8192x1024_1_0_n_n_0_1_11024 x i) : (⟨S4096x1024, .f32⟩ : BufTy).Contents (Elt F) → (⟨S8192x1, .i32⟩ : BufTy).Contents (Elt F) → (⟨S8192x1024, .f32⟩ : BufTy).Contents (Elt F)),
    StableHlo.nullary main_cst (constant S_ .f32 0x00000000#32),
    StableHlo.unary main_cst main_v8 (broadcastInDim S8192x1024 ![] bcast_S_S8192x1024 : (⟨S_, .f32⟩ : BufTy).Contents (Elt F) → (⟨S8192x1024, .f32⟩ : BufTy).Contents (Elt F)),
    StableHlo.nullary main_c_2 (constantI S_ 32 0#32),
    StableHlo.unary main_c_2 main_v9 (broadcastInDim S8192 ![] bcast_S_S8192 : (⟨S_, .i32⟩ : BufTy).Contents (Elt F) → (⟨S8192, .i32⟩ : BufTy).Contents (Elt F)),
    StableHlo.binary main_arg2 main_v9 main_v10 (cmpi .eq : (⟨S8192, .i32⟩ : BufTy).Contents (Elt F) → (⟨S8192, .i32⟩ : BufTy).Contents (Elt F) → (⟨S8192, .i1⟩ : BufTy).Contents (Elt F)),
    StableHlo.unary main_v10 main_v11 (broadcastInDim S8192x1 ![0] bcast_S8192_S8192x1_0 : (⟨S8192, .i1⟩ : BufTy).Contents (Elt F) → (⟨S8192x1, .i1⟩ : BufTy).Contents (Elt F)),
    StableHlo.nullary main_cst_3 (constant S_ .f32 0x00000000#32),
    StableHlo.TRef.unary (.of main_v11 : StableHlo.TRef sig ⟨S8192x1, .i1⟩) main_call1.v0 (broadcastInDim S8192x1024 ![0, 1] bcast_S8192x1_S8192x1024_0_1),
    StableHlo.TRef.unary (.of main_cst_3 : StableHlo.TRef sig ⟨S_, .f32⟩) main_call1.v1 (broadcastInDim S8192x1024 ![] bcast_S_S8192x1024),
    StableHlo.TRef.ternary main_call1.v0 (.of main_v7 : StableHlo.TRef sig ⟨S8192x1024, .f32⟩) main_call1.v1 main_call1.v2 select,
    StableHlo.unary main_arg1 main_v13 ((extractStridedSlice S1x1024x1024 ![0, 0, 0] · slices_S8x1024x1024_S1x1024x1024_0_0_0) : (⟨S8x1024x1024, .f32⟩ : BufTy).Contents (Elt F) → (⟨S1x1024x1024, .f32⟩ : BufTy).Contents (Elt F)),
    StableHlo.reshape main_v13 main_v14 rfl shapeCasts_S1x1024x1024_S1024x1024,
    StableHlo.binary main_v12 main_v14 main_v15 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v8 main_v15 main_v16 (addf : (⟨S8192x1024, .f32⟩ : BufTy).Contents (Elt F) → (⟨S8192x1024, .f32⟩ : BufTy).Contents (Elt F) → (⟨S8192x1024, .f32⟩ : BufTy).Contents (Elt F)),
    StableHlo.nullary main_c_4 (constantI S_ 32 1#32),
    StableHlo.unary main_c_4 main_v17 (broadcastInDim S8192 ![] bcast_S_S8192 : (⟨S_, .i32⟩ : BufTy).Contents (Elt F) → (⟨S8192, .i32⟩ : BufTy).Contents (Elt F)),
    StableHlo.binary main_arg2 main_v17 main_v18 (cmpi .eq : (⟨S8192, .i32⟩ : BufTy).Contents (Elt F) → (⟨S8192, .i32⟩ : BufTy).Contents (Elt F) → (⟨S8192, .i1⟩ : BufTy).Contents (Elt F)),
    StableHlo.unary main_v18 main_v19 (broadcastInDim S8192x1 ![0] bcast_S8192_S8192x1_0 : (⟨S8192, .i1⟩ : BufTy).Contents (Elt F) → (⟨S8192x1, .i1⟩ : BufTy).Contents (Elt F)),
    StableHlo.nullary main_cst_5 (constant S_ .f32 0x00000000#32),
    StableHlo.TRef.unary (.of main_v19 : StableHlo.TRef sig ⟨S8192x1, .i1⟩) main_call2.v0 (broadcastInDim S8192x1024 ![0, 1] bcast_S8192x1_S8192x1024_0_1),
    StableHlo.TRef.unary (.of main_cst_5 : StableHlo.TRef sig ⟨S_, .f32⟩) main_call2.v1 (broadcastInDim S8192x1024 ![] bcast_S_S8192x1024),
    StableHlo.TRef.ternary main_call2.v0 (.of main_v7 : StableHlo.TRef sig ⟨S8192x1024, .f32⟩) main_call2.v1 main_call2.v2 select,
    StableHlo.unary main_arg1 main_v21 ((extractStridedSlice S1x1024x1024 ![1, 0, 0] · slices_S8x1024x1024_S1x1024x1024_1_0_0) : (⟨S8x1024x1024, .f32⟩ : BufTy).Contents (Elt F) → (⟨S1x1024x1024, .f32⟩ : BufTy).Contents (Elt F)),
    StableHlo.reshape main_v21 main_v22 rfl shapeCasts_S1x1024x1024_S1024x1024,
    StableHlo.binary main_v20 main_v22 main_v23 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v16 main_v23 main_v24 (addf : (⟨S8192x1024, .f32⟩ : BufTy).Contents (Elt F) → (⟨S8192x1024, .f32⟩ : BufTy).Contents (Elt F) → (⟨S8192x1024, .f32⟩ : BufTy).Contents (Elt F)),
    StableHlo.nullary main_c_6 (constantI S_ 32 2#32),
    StableHlo.unary main_c_6 main_v25 (broadcastInDim S8192 ![] bcast_S_S8192 : (⟨S_, .i32⟩ : BufTy).Contents (Elt F) → (⟨S8192, .i32⟩ : BufTy).Contents (Elt F)),
    StableHlo.binary main_arg2 main_v25 main_v26 (cmpi .eq : (⟨S8192, .i32⟩ : BufTy).Contents (Elt F) → (⟨S8192, .i32⟩ : BufTy).Contents (Elt F) → (⟨S8192, .i1⟩ : BufTy).Contents (Elt F)),
    StableHlo.unary main_v26 main_v27 (broadcastInDim S8192x1 ![0] bcast_S8192_S8192x1_0 : (⟨S8192, .i1⟩ : BufTy).Contents (Elt F) → (⟨S8192x1, .i1⟩ : BufTy).Contents (Elt F)),
    StableHlo.nullary main_cst_7 (constant S_ .f32 0x00000000#32),
    StableHlo.TRef.unary (.of main_v27 : StableHlo.TRef sig ⟨S8192x1, .i1⟩) main_call3.v0 (broadcastInDim S8192x1024 ![0, 1] bcast_S8192x1_S8192x1024_0_1),
    StableHlo.TRef.unary (.of main_cst_7 : StableHlo.TRef sig ⟨S_, .f32⟩) main_call3.v1 (broadcastInDim S8192x1024 ![] bcast_S_S8192x1024),
    StableHlo.TRef.ternary main_call3.v0 (.of main_v7 : StableHlo.TRef sig ⟨S8192x1024, .f32⟩) main_call3.v1 main_call3.v2 select,
    StableHlo.unary main_arg1 main_v29 ((extractStridedSlice S1x1024x1024 ![2, 0, 0] · slices_S8x1024x1024_S1x1024x1024_2_0_0) : (⟨S8x1024x1024, .f32⟩ : BufTy).Contents (Elt F) → (⟨S1x1024x1024, .f32⟩ : BufTy).Contents (Elt F)),
    StableHlo.reshape main_v29 main_v30 rfl shapeCasts_S1x1024x1024_S1024x1024,
    StableHlo.binary main_v28 main_v30 main_v31 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v24 main_v31 main_v32 (addf : (⟨S8192x1024, .f32⟩ : BufTy).Contents (Elt F) → (⟨S8192x1024, .f32⟩ : BufTy).Contents (Elt F) → (⟨S8192x1024, .f32⟩ : BufTy).Contents (Elt F)),
    StableHlo.nullary main_c_8 (constantI S_ 32 3#32),
    StableHlo.unary main_c_8 main_v33 (broadcastInDim S8192 ![] bcast_S_S8192 : (⟨S_, .i32⟩ : BufTy).Contents (Elt F) → (⟨S8192, .i32⟩ : BufTy).Contents (Elt F)),
    StableHlo.binary main_arg2 main_v33 main_v34 (cmpi .eq : (⟨S8192, .i32⟩ : BufTy).Contents (Elt F) → (⟨S8192, .i32⟩ : BufTy).Contents (Elt F) → (⟨S8192, .i1⟩ : BufTy).Contents (Elt F)),
    StableHlo.unary main_v34 main_v35 (broadcastInDim S8192x1 ![0] bcast_S8192_S8192x1_0 : (⟨S8192, .i1⟩ : BufTy).Contents (Elt F) → (⟨S8192x1, .i1⟩ : BufTy).Contents (Elt F)),
    StableHlo.nullary main_cst_9 (constant S_ .f32 0x00000000#32),
    StableHlo.TRef.unary (.of main_v35 : StableHlo.TRef sig ⟨S8192x1, .i1⟩) main_call4.v0 (broadcastInDim S8192x1024 ![0, 1] bcast_S8192x1_S8192x1024_0_1),
    StableHlo.TRef.unary (.of main_cst_9 : StableHlo.TRef sig ⟨S_, .f32⟩) main_call4.v1 (broadcastInDim S8192x1024 ![] bcast_S_S8192x1024),
    StableHlo.TRef.ternary main_call4.v0 (.of main_v7 : StableHlo.TRef sig ⟨S8192x1024, .f32⟩) main_call4.v1 main_call4.v2 select,
    StableHlo.unary main_arg1 main_v37 ((extractStridedSlice S1x1024x1024 ![3, 0, 0] · slices_S8x1024x1024_S1x1024x1024_3_0_0) : (⟨S8x1024x1024, .f32⟩ : BufTy).Contents (Elt F) → (⟨S1x1024x1024, .f32⟩ : BufTy).Contents (Elt F)),
    StableHlo.reshape main_v37 main_v38 rfl shapeCasts_S1x1024x1024_S1024x1024,
    StableHlo.binary main_v36 main_v38 main_v39 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v32 main_v39 main_v40 (addf : (⟨S8192x1024, .f32⟩ : BufTy).Contents (Elt F) → (⟨S8192x1024, .f32⟩ : BufTy).Contents (Elt F) → (⟨S8192x1024, .f32⟩ : BufTy).Contents (Elt F)),
    StableHlo.nullary main_c_10 (constantI S_ 32 4#32),
    StableHlo.unary main_c_10 main_v41 (broadcastInDim S8192 ![] bcast_S_S8192 : (⟨S_, .i32⟩ : BufTy).Contents (Elt F) → (⟨S8192, .i32⟩ : BufTy).Contents (Elt F)),
    StableHlo.binary main_arg2 main_v41 main_v42 (cmpi .eq : (⟨S8192, .i32⟩ : BufTy).Contents (Elt F) → (⟨S8192, .i32⟩ : BufTy).Contents (Elt F) → (⟨S8192, .i1⟩ : BufTy).Contents (Elt F)),
    StableHlo.unary main_v42 main_v43 (broadcastInDim S8192x1 ![0] bcast_S8192_S8192x1_0 : (⟨S8192, .i1⟩ : BufTy).Contents (Elt F) → (⟨S8192x1, .i1⟩ : BufTy).Contents (Elt F)),
    StableHlo.nullary main_cst_11 (constant S_ .f32 0x00000000#32),
    StableHlo.TRef.unary (.of main_v43 : StableHlo.TRef sig ⟨S8192x1, .i1⟩) main_call5.v0 (broadcastInDim S8192x1024 ![0, 1] bcast_S8192x1_S8192x1024_0_1),
    StableHlo.TRef.unary (.of main_cst_11 : StableHlo.TRef sig ⟨S_, .f32⟩) main_call5.v1 (broadcastInDim S8192x1024 ![] bcast_S_S8192x1024),
    StableHlo.TRef.ternary main_call5.v0 (.of main_v7 : StableHlo.TRef sig ⟨S8192x1024, .f32⟩) main_call5.v1 main_call5.v2 select,
    StableHlo.unary main_arg1 main_v45 ((extractStridedSlice S1x1024x1024 ![4, 0, 0] · slices_S8x1024x1024_S1x1024x1024_4_0_0) : (⟨S8x1024x1024, .f32⟩ : BufTy).Contents (Elt F) → (⟨S1x1024x1024, .f32⟩ : BufTy).Contents (Elt F)),
    StableHlo.reshape main_v45 main_v46 rfl shapeCasts_S1x1024x1024_S1024x1024,
    StableHlo.binary main_v44 main_v46 main_v47 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v40 main_v47 main_v48 (addf : (⟨S8192x1024, .f32⟩ : BufTy).Contents (Elt F) → (⟨S8192x1024, .f32⟩ : BufTy).Contents (Elt F) → (⟨S8192x1024, .f32⟩ : BufTy).Contents (Elt F)),
    StableHlo.nullary main_c_12 (constantI S_ 32 5#32),
    StableHlo.unary main_c_12 main_v49 (broadcastInDim S8192 ![] bcast_S_S8192 : (⟨S_, .i32⟩ : BufTy).Contents (Elt F) → (⟨S8192, .i32⟩ : BufTy).Contents (Elt F)),
    StableHlo.binary main_arg2 main_v49 main_v50 (cmpi .eq : (⟨S8192, .i32⟩ : BufTy).Contents (Elt F) → (⟨S8192, .i32⟩ : BufTy).Contents (Elt F) → (⟨S8192, .i1⟩ : BufTy).Contents (Elt F)),
    StableHlo.unary main_v50 main_v51 (broadcastInDim S8192x1 ![0] bcast_S8192_S8192x1_0 : (⟨S8192, .i1⟩ : BufTy).Contents (Elt F) → (⟨S8192x1, .i1⟩ : BufTy).Contents (Elt F)),
    StableHlo.nullary main_cst_13 (constant S_ .f32 0x00000000#32),
    StableHlo.TRef.unary (.of main_v51 : StableHlo.TRef sig ⟨S8192x1, .i1⟩) main_call6.v0 (broadcastInDim S8192x1024 ![0, 1] bcast_S8192x1_S8192x1024_0_1),
    StableHlo.TRef.unary (.of main_cst_13 : StableHlo.TRef sig ⟨S_, .f32⟩) main_call6.v1 (broadcastInDim S8192x1024 ![] bcast_S_S8192x1024),
    StableHlo.TRef.ternary main_call6.v0 (.of main_v7 : StableHlo.TRef sig ⟨S8192x1024, .f32⟩) main_call6.v1 main_call6.v2 select,
    StableHlo.unary main_arg1 main_v53 ((extractStridedSlice S1x1024x1024 ![5, 0, 0] · slices_S8x1024x1024_S1x1024x1024_5_0_0) : (⟨S8x1024x1024, .f32⟩ : BufTy).Contents (Elt F) → (⟨S1x1024x1024, .f32⟩ : BufTy).Contents (Elt F)),
    StableHlo.reshape main_v53 main_v54 rfl shapeCasts_S1x1024x1024_S1024x1024,
    StableHlo.binary main_v52 main_v54 main_v55 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v48 main_v55 main_v56 (addf : (⟨S8192x1024, .f32⟩ : BufTy).Contents (Elt F) → (⟨S8192x1024, .f32⟩ : BufTy).Contents (Elt F) → (⟨S8192x1024, .f32⟩ : BufTy).Contents (Elt F)),
    StableHlo.nullary main_c_14 (constantI S_ 32 6#32),
    StableHlo.unary main_c_14 main_v57 (broadcastInDim S8192 ![] bcast_S_S8192 : (⟨S_, .i32⟩ : BufTy).Contents (Elt F) → (⟨S8192, .i32⟩ : BufTy).Contents (Elt F)),
    StableHlo.binary main_arg2 main_v57 main_v58 (cmpi .eq : (⟨S8192, .i32⟩ : BufTy).Contents (Elt F) → (⟨S8192, .i32⟩ : BufTy).Contents (Elt F) → (⟨S8192, .i1⟩ : BufTy).Contents (Elt F)),
    StableHlo.unary main_v58 main_v59 (broadcastInDim S8192x1 ![0] bcast_S8192_S8192x1_0 : (⟨S8192, .i1⟩ : BufTy).Contents (Elt F) → (⟨S8192x1, .i1⟩ : BufTy).Contents (Elt F)),
    StableHlo.nullary main_cst_15 (constant S_ .f32 0x00000000#32),
    StableHlo.TRef.unary (.of main_v59 : StableHlo.TRef sig ⟨S8192x1, .i1⟩) main_call7.v0 (broadcastInDim S8192x1024 ![0, 1] bcast_S8192x1_S8192x1024_0_1),
    StableHlo.TRef.unary (.of main_cst_15 : StableHlo.TRef sig ⟨S_, .f32⟩) main_call7.v1 (broadcastInDim S8192x1024 ![] bcast_S_S8192x1024),
    StableHlo.TRef.ternary main_call7.v0 (.of main_v7 : StableHlo.TRef sig ⟨S8192x1024, .f32⟩) main_call7.v1 main_call7.v2 select,
    StableHlo.unary main_arg1 main_v61 ((extractStridedSlice S1x1024x1024 ![6, 0, 0] · slices_S8x1024x1024_S1x1024x1024_6_0_0) : (⟨S8x1024x1024, .f32⟩ : BufTy).Contents (Elt F) → (⟨S1x1024x1024, .f32⟩ : BufTy).Contents (Elt F)),
    StableHlo.reshape main_v61 main_v62 rfl shapeCasts_S1x1024x1024_S1024x1024,
    StableHlo.binary main_v60 main_v62 main_v63 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v56 main_v63 main_v64 (addf : (⟨S8192x1024, .f32⟩ : BufTy).Contents (Elt F) → (⟨S8192x1024, .f32⟩ : BufTy).Contents (Elt F) → (⟨S8192x1024, .f32⟩ : BufTy).Contents (Elt F)),
    StableHlo.nullary main_c_16 (constantI S_ 32 7#32),
    StableHlo.unary main_c_16 main_v65 (broadcastInDim S8192 ![] bcast_S_S8192 : (⟨S_, .i32⟩ : BufTy).Contents (Elt F) → (⟨S8192, .i32⟩ : BufTy).Contents (Elt F)),
    StableHlo.binary main_arg2 main_v65 main_v66 (cmpi .eq : (⟨S8192, .i32⟩ : BufTy).Contents (Elt F) → (⟨S8192, .i32⟩ : BufTy).Contents (Elt F) → (⟨S8192, .i1⟩ : BufTy).Contents (Elt F)),
    StableHlo.unary main_v66 main_v67 (broadcastInDim S8192x1 ![0] bcast_S8192_S8192x1_0 : (⟨S8192, .i1⟩ : BufTy).Contents (Elt F) → (⟨S8192x1, .i1⟩ : BufTy).Contents (Elt F)),
    StableHlo.nullary main_cst_17 (constant S_ .f32 0x00000000#32),
    StableHlo.TRef.unary (.of main_v67 : StableHlo.TRef sig ⟨S8192x1, .i1⟩) main_call8.v0 (broadcastInDim S8192x1024 ![0, 1] bcast_S8192x1_S8192x1024_0_1),
    StableHlo.TRef.unary (.of main_cst_17 : StableHlo.TRef sig ⟨S_, .f32⟩) main_call8.v1 (broadcastInDim S8192x1024 ![] bcast_S_S8192x1024),
    StableHlo.TRef.ternary main_call8.v0 (.of main_v7 : StableHlo.TRef sig ⟨S8192x1024, .f32⟩) main_call8.v1 main_call8.v2 select,
    StableHlo.unary main_arg1 main_v69 ((extractStridedSlice S1x1024x1024 ![7, 0, 0] · slices_S8x1024x1024_S1x1024x1024_7_0_0) : (⟨S8x1024x1024, .f32⟩ : BufTy).Contents (Elt F) → (⟨S1x1024x1024, .f32⟩ : BufTy).Contents (Elt F)),
    StableHlo.reshape main_v69 main_v70 rfl shapeCasts_S1x1024x1024_S1024x1024,
    StableHlo.binary main_v68 main_v70 main_v71 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.binary main_v64 main_v71 main_v72 (addf : (⟨S8192x1024, .f32⟩ : BufTy).Contents (Elt F) → (⟨S8192x1024, .f32⟩ : BufTy).Contents (Elt F) → (⟨S8192x1024, .f32⟩ : BufTy).Contents (Elt F)),
    StableHlo.reshape main_arg6 main_v73 rfl shapeCasts_S4096x2_S8192,
    StableHlo.nullary main_c_18 (constantI S_ 32 0#32),
    StableHlo.unary main_c_18 main_v74 (broadcastInDim S8192 ![] bcast_S_S8192 : (⟨S_, .i32⟩ : BufTy).Contents (Elt F) → (⟨S8192, .i32⟩ : BufTy).Contents (Elt F)),
    StableHlo.binary main_arg3 main_v74 main_v75 (cmpi .slt : (⟨S8192, .i32⟩ : BufTy).Contents (Elt F) → (⟨S8192, .i32⟩ : BufTy).Contents (Elt F) → (⟨S8192, .i1⟩ : BufTy).Contents (Elt F)),
    StableHlo.nullary main_c_19 (constantI S_ 32 8192#32),
    StableHlo.unary main_c_19 main_v76 (broadcastInDim S8192 ![] bcast_S_S8192 : (⟨S_, .i32⟩ : BufTy).Contents (Elt F) → (⟨S8192, .i32⟩ : BufTy).Contents (Elt F)),
    StableHlo.binary main_arg3 main_v76 main_v77 (addi : (⟨S8192, .i32⟩ : BufTy).Contents (Elt F) → (⟨S8192, .i32⟩ : BufTy).Contents (Elt F) → (⟨S8192, .i32⟩ : BufTy).Contents (Elt F)),
    StableHlo.ternary main_v75 main_v77 main_arg3 main_v78 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v78 main_v79 (broadcastInDim S8192x1 ![0] bcast_S8192_S8192x1_0 : (⟨S8192, .i32⟩ : BufTy).Contents (Elt F) → (⟨S8192x1, .i32⟩ : BufTy).Contents (Elt F)),
    StableHlo.binary main_v73 main_v79 main_v80 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    StableHlo.unary main_v80 main_v81 (broadcastInDim S8192x1 ![0] bcast_S8192_S8192x1_0 : (⟨S8192, .f32⟩ : BufTy).Contents (Elt F) → (⟨S8192x1, .f32⟩ : BufTy).Contents (Elt F)),
    StableHlo.nullary main_cst_20 (constant S_ .f32 0x00000000#32),
    StableHlo.unary main_cst_20 main_v82 (broadcastInDim S4096x1024 ![] bcast_S_S4096x1024 : (⟨S_, .f32⟩ : BufTy).Contents (Elt F) → (⟨S4096x1024, .f32⟩ : BufTy).Contents (Elt F)),
    StableHlo.unary main_v81 main_v83 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v72 main_v83 main_v84 (mulf : (⟨S8192x1024, .f32⟩ : BufTy).Contents (Elt F) → (⟨S8192x1024, .f32⟩ : BufTy).Contents (Elt F) → (⟨S8192x1024, .f32⟩ : BufTy).Contents (Elt F)),
    StableHlo.nullary main_c_21 (constantI S_ 32 0#32),
    StableHlo.unary main_c_21 main_v85 (broadcastInDim S8192 ![] bcast_S_S8192 : (⟨S_, .i32⟩ : BufTy).Contents (Elt F) → (⟨S8192, .i32⟩ : BufTy).Contents (Elt F)),
    StableHlo.binary main_v0 main_v85 main_v86 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 4096#32),
    StableHlo.unary main_c_22 main_v87 (broadcastInDim S8192 ![] bcast_S_S8192 : (⟨S_, .i32⟩ : BufTy).Contents (Elt F) → (⟨S8192, .i32⟩ : BufTy).Contents (Elt F)),
    StableHlo.binary main_v0 main_v87 main_v88 (addi : (⟨S8192, .i32⟩ : BufTy).Contents (Elt F) → (⟨S8192, .i32⟩ : BufTy).Contents (Elt F) → (⟨S8192, .i32⟩ : BufTy).Contents (Elt F)),
    StableHlo.ternary main_v86 main_v88 main_v0 main_v89 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v89 main_v90 (broadcastInDim S8192x1 ![0] bcast_S8192_S8192x1_0 : (⟨S8192, .i32⟩ : BufTy).Contents (Elt F) → (⟨S8192x1, .i32⟩ : BufTy).Contents (Elt F)),
    StableHlo.ternary main_v82 main_v90 main_v84 main_v91 ((fun x i u => Host.scatterAdd scatter_S4096x1024_S8192x1_S8192x1024_1_0_0_1 x i u) : (⟨S4096x1024, .f32⟩ : BufTy).Contents (Elt F) → (⟨S8192x1, .i32⟩ : BufTy).Contents (Elt F) → (⟨S8192x1024, .f32⟩ : BufTy).Contents (Elt F) → (⟨S4096x1024, .f32⟩ : BufTy).Contents (Elt F)) ]

/-- Every operation touches TensorCore buffers only. -/
theorem ops_sub : (ops : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.binary_bufs_sub .., StableHlo.nullary_bufs_sub ..,
    StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub .., StableHlo.nullary_bufs_sub ..,
    StableHlo.unary_bufs_sub .., StableHlo.binary_bufs_sub .., StableHlo.unary_bufs_sub .., StableHlo.nullary_bufs_sub .., StableHlo.unary_bufs_sub ..,
    StableHlo.unary_bufs_sub .., StableHlo.ternary_bufs_sub .., StableHlo.unary_bufs_sub .., StableHlo.reshape_bufs_sub .., StableHlo.binary_bufs_sub ..,
    StableHlo.binary_bufs_sub .., StableHlo.nullary_bufs_sub .., StableHlo.unary_bufs_sub .., StableHlo.binary_bufs_sub .., StableHlo.unary_bufs_sub ..,
    StableHlo.nullary_bufs_sub .., StableHlo.unary_bufs_sub .., StableHlo.unary_bufs_sub .., StableHlo.ternary_bufs_sub .., StableHlo.unary_bufs_sub ..,
    StableHlo.reshape_bufs_sub .., StableHlo.binary_bufs_sub .., StableHlo.binary_bufs_sub .., StableHlo.nullary_bufs_sub .., StableHlo.unary_bufs_sub ..,
    StableHlo.binary_bufs_sub .., StableHlo.unary_bufs_sub .., StableHlo.nullary_bufs_sub .., StableHlo.unary_bufs_sub .., StableHlo.unary_bufs_sub ..,
    StableHlo.ternary_bufs_sub .., StableHlo.unary_bufs_sub .., StableHlo.reshape_bufs_sub .., StableHlo.binary_bufs_sub .., StableHlo.binary_bufs_sub ..,
    StableHlo.nullary_bufs_sub .., StableHlo.unary_bufs_sub .., StableHlo.binary_bufs_sub .., StableHlo.unary_bufs_sub .., StableHlo.nullary_bufs_sub ..,
    StableHlo.unary_bufs_sub .., StableHlo.unary_bufs_sub .., StableHlo.ternary_bufs_sub .., StableHlo.unary_bufs_sub .., StableHlo.reshape_bufs_sub ..,
    StableHlo.binary_bufs_sub .., StableHlo.binary_bufs_sub .., StableHlo.nullary_bufs_sub .., StableHlo.unary_bufs_sub .., StableHlo.binary_bufs_sub ..,
    StableHlo.unary_bufs_sub .., StableHlo.nullary_bufs_sub .., StableHlo.unary_bufs_sub .., StableHlo.unary_bufs_sub .., StableHlo.ternary_bufs_sub ..,
    StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.unary_bufs_sub .., StableHlo.nullary_bufs_sub .., StableHlo.unary_bufs_sub ..,
    StableHlo.unary_bufs_sub .., StableHlo.ternary_bufs_sub .., StableHlo.unary_bufs_sub .., StableHlo.reshape_bufs_sub .., StableHlo.binary_bufs_sub ..,
    StableHlo.binary_bufs_sub .., StableHlo.nullary_bufs_sub .., StableHlo.unary_bufs_sub .., StableHlo.binary_bufs_sub .., StableHlo.unary_bufs_sub ..,
    StableHlo.nullary_bufs_sub .., StableHlo.unary_bufs_sub .., StableHlo.unary_bufs_sub .., StableHlo.ternary_bufs_sub .., StableHlo.unary_bufs_sub ..,
    StableHlo.reshape_bufs_sub .., StableHlo.binary_bufs_sub .., StableHlo.binary_bufs_sub .., StableHlo.nullary_bufs_sub .., StableHlo.unary_bufs_sub ..,
    StableHlo.binary_bufs_sub .., StableHlo.unary_bufs_sub .., StableHlo.nullary_bufs_sub .., StableHlo.unary_bufs_sub .., StableHlo.unary_bufs_sub ..,
    StableHlo.ternary_bufs_sub .., StableHlo.unary_bufs_sub .., StableHlo.reshape_bufs_sub .., StableHlo.binary_bufs_sub .., StableHlo.binary_bufs_sub ..,
    StableHlo.reshape_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.unary_bufs_sub .., StableHlo.nullary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.ternary_bufs_sub ..⟩

end Cert.ReferenceIdeal.RefRun

end
-- ==== Proof.RefRun.lean ====
import proofs.«416535_j66271345377806_2_alg».proof.Proof.RefFun
import proofs.«416535_j66271345377806_2_alg».proof.Proof.RefOps
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.ReferenceIdeal.RefRun

open Cert.ReferenceIdeal Cert.ReferenceIdeal.RefFun
open Cert.ReferenceIdeal.Facts₀

variable {F : FTy → Type} [FloatOps F]

-- sequencing is re-associated once per statement, 149 deep
set_option maxRecDepth 8192 in
set_option maxHeartbeats 4000000 in
/-- @main is that straight line: its two windows in order, the functions unfolded at their calls and the records at
    their fields; both sides are one chain of steps once sequencing is reassociated. -/
theorem main_eq (c : Dev nD) : main (F := F) c = StableHlo.seq ops := by
  simp only [main, main_part0, main_part1, fn_floor_divide.body, fn_where.body, fn_where_0.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every final state has each TensorCore buffer at the
    operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c : Thread nD τ).loc b) = StableHlo.after ops (StableHlo.launchContents m c) (b : DevRef τ sig) :=
  StableHlo.run_seq scopedRefs_eq scopedSems_eq defs main (fun _ => ops) main_eq (fun _ => ops_sub) m ρ

/-! No operation writes an argument's buffer: each keeps its contents through the fold. -/
theorem arg0_eq (V : Valuation τ sig (Elt F)) :
    StableHlo.after ops V (main_arg0 : DevRef τ sig) = V (main_arg0 : DevRef τ sig) := by
  after_results_simp

theorem arg1_eq (V : Valuation τ sig (Elt F)) :
    StableHlo.after ops V (main_arg1 : DevRef τ sig) = V (main_arg1 : DevRef τ sig) := by
  after_results_simp

theorem arg2_eq (V : Valuation τ sig (Elt F)) :
    StableHlo.after ops V (main_arg2 : DevRef τ sig) = V (main_arg2 : DevRef τ sig) := by
  after_results_simp

theorem arg3_eq (V : Valuation τ sig (Elt F)) :
    StableHlo.after ops V (main_arg3 : DevRef τ sig) = V (main_arg3 : DevRef τ sig) := by
  after_results_simp

theorem arg4_eq (V : Valuation τ sig (Elt F)) :
    StableHlo.after ops V (main_arg4 : DevRef τ sig) = V (main_arg4 : DevRef τ sig) := by
  after_results_simp

theorem arg5_eq (V : Valuation τ sig (Elt F)) :
    StableHlo.after ops V (main_arg5 : DevRef τ sig) = V (main_arg5 : DevRef τ sig) := by
  after_results_simp

theorem arg6_eq (V : Valuation τ sig (Elt F)) :
    StableHlo.after ops V (main_arg6 : DevRef τ sig) = V (main_arg6 : DevRef τ sig) := by
  after_results_simp

set_option maxRecDepth 8192 in
set_option maxHeartbeats 4000000 in
/-- The fold at the result buffer is the composed function: each operation's result read at its own buffer is its
    function of the operands' contents, and the outlined functions' lines are the small definitions' lets. -/
theorem out_eq (V : Valuation τ sig (Elt F)) :
    StableHlo.after ops V (main_v91 : DevRef τ sig)
      = refFun (V (main_arg0 : DevRef τ sig)) (V (main_arg1 : DevRef τ sig)) (V (main_arg2 : DevRef τ sig))
          (V (main_arg3 : DevRef τ sig)) (V (main_arg6 : DevRef τ sig)) := by
  after_results_simp
  rfl

/-- Every weakly fair execution of the reference terminates without a fault, its result at the operations' composed
    function of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c : Thread nD τ).loc main_v91)
          = refFun (m ((c : Thread nD τ).loc main_arg0)) (m ((c : Thread nD τ).loc main_arg1))
              (m ((c : Thread nD τ).loc main_arg2)) (m ((c : Thread nD τ).loc main_arg3)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c main_v91).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _)⟩)
    (run_main m ρ)

end Cert.ReferenceIdeal.RefRun

end
-- ==== Proof.RefValue.lean ====
import proofs.«416535_j66271345377806_2_alg».proof.Proof.RefFun
import proofs.«416535_j66271345377806_2_alg».proof.Proof.Spec
import proofs.«416535_j66271345377806_2_alg».proof.Proof.LibRowDot
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.RefFun

/-! ## The index words -/

/-- A word that is not negative read signed has its top bit clear. -/
private theorem msb_false_of_nonneg (a : BitVec 32) (h0 : 0 ≤ a.toInt) : a.msb = false := by
  rw [BitVec.msb_eq_toInt]; exact decide_eq_false (by omega)

/-- A slot number read signed is the same number read unsigned. -/
private theorem toNat_of_range (a : BitVec 32) (h0 : 0 ≤ a.toInt) (h1 : a.toInt < 8192) :
    a.toInt = (a.toNat : Int) ∧ a.toNat < 8192 := by
  have h := BitVec.toInt_eq_toNat_of_msb (msb_false_of_nonneg a h0)
  refine ⟨h, ?_⟩
  omega

/-- The floor of a slot number by two, as the word operations compute it: the truncating quotient of a word that is not
    negative by a positive one is already the floor (the correction's condition is false), and it is half the number. -/
private theorem floorDivide_word (a : BitVec 32) (h0 : 0 ≤ a.toInt) (h1 : a.toInt < 8192) :
    Scalar.select
        (IntOp.andi
          (IntOp.cmpi .ne (if a = 0 then (0 : BitVec 32) else if a.msb then -1 else 1)
            (if (2#32 : BitVec 32) = 0 then (0 : BitVec 32) else if (2#32 : BitVec 32).msb then -1 else 1))
          (IntOp.cmpi .ne (IntOp.remsi .host a 2#32) 0#32))
        (IntOp.subi (IntOp.divsi .host a 2#32) 1#32) (IntOp.divsi .host a 2#32)
      = BitVec.ofNat 32 (a.toNat / 2) := by
  have hm := msb_false_of_nonneg a h0
  obtain ⟨-, hlt⟩ := toNat_of_range a h0 h1
  have hc : ¬ IntOp.SDivCorner a 2#32 := by
    rintro (h | ⟨-, h⟩)
    · exact absurd h (by decide)
    · exact absurd h (by decide)
  have hdiv : IntOp.divsi .host a 2#32 = a / 2#32 := by
    unfold IntOp.divsi
    rw [if_neg hc, BitVec.sdiv_eq, hm]
    rfl
  have hq : a / 2#32 = BitVec.ofNat 32 (a.toNat / 2) := by
    apply BitVec.eq_of_toNat_eq
    rw [BitVec.toNat_udiv, BitVec.toNat_ofNat]
    show a.toNat / 2 = a.toNat / 2 % 2 ^ 32
    omega
  rw [hdiv, hq]
  by_cases ha : a = 0
  · subst ha; decide
  · rw [if_neg ha, hm]
    have : IntOp.cmpi .ne (if false = true then (-1 : BitVec 32) else 1)
        (if (2#32 : BitVec 32) = 0 then (0 : BitVec 32) else if (2#32 : BitVec 32).msb then -1 else 1) = 0#1 := by decide
    rw [this]
    have h0 : ∀ b : BitVec 1, IntOp.andi 0#1 b = 0#1 := by decide
    rw [h0, select_zero]

/-- A word that is not negative is not wrapped. -/
private theorem wrapNeg_word (n a : BitVec 32) (h0 : 0 ≤ a.toInt) :
    Scalar.select (IntOp.cmpi .slt a 0#32) (IntOp.addi a n) a = a := by
  have : IntOp.cmpi .slt a 0#32 = 0#1 := by
    unfold IntOp.cmpi
    show BitVec.ofBool (a.slt 0#32) = 0#1
    rw [BitVec.slt_eq_decide]
    have : ¬ a.toInt < (0#32 : BitVec 32).toInt := by
      rw [show (0#32 : BitVec 32).toInt = 0 from by decide]; omega
    rw [decide_eq_false this]; rfl
  rw [this, select_zero]

/-- `floorDivide` of the slot words by the constant two, read at row `j`. -/
private theorem floorDivide_apply (idx : IVec S8192 32) (j : Fin 8192)
    (h0 : 0 ≤ (idx (ix1 j)).toInt) (h1 : (idx (ix1 j)).toInt < 8192) :
    floorDivide idx (constantI S_ 32 2#32) (ix1 j) = BitVec.ofNat 32 ((idx (ix1 j)).toNat / 2) :=
  floorDivide_word (idx (ix1 j)) h0 h1

/-- `wrapNeg` read at a row whose word is not negative. -/
private theorem wrapNeg_apply (n : BitVec 32) (v : IVec S8192 32) (j : Fin 8192) (h0 : 0 ≤ (v (ix1 j)).toInt) :
    wrapNeg n v (ix1 j) = v (ix1 j) :=
  wrapNeg_word n (v (ix1 j)) h0

/-! ## The re-indexings read at an index -/

/-- A vector broadcast along a new trailing unit axis reads, at `(j, 0)`, the vector at `j`. -/
private theorem bcastCol_apply {α : Type} (v : S8192.Idx → α) (j : Fin 8192) (z : Fin 1) :
    broadcastInDim S8192x1 ![0] Facts₀.bcast_S8192_S8192x1_0 v (ix2 j z) = v (ix1 j) :=
  broadcastInDim_apply _ _ v _ _ fun a => match a with | ⟨0, _⟩ => rfl

/-- A column broadcast along the rows' columns reads, at `(j, i)`, the column at `(j, 0)`. -/
private theorem bcastRow_apply {α : Type} (m : S8192x1.Idx → α) (j : Fin 8192) (i : Fin 1024) :
    broadcastInDim S8192x1024 ![0, 1] Facts₀.bcast_S8192x1_S8192x1024_0_1 m (ix2 j i) = m (ix2 j (0 : Fin 1)) :=
  broadcastInDim_apply _ _ m _ _ fun a => match a with | ⟨0, _⟩ => rfl | ⟨1, _⟩ => rfl

/-- The row gather read at `(j, i)`: the operand's row the start word names (read signed, clamped into the rows), at
    column `i`. -/
private theorem gatherRows_apply {α : Type} (x : S4096x1024.Idx → α) (si : IVec S8192x1 32) (j : Fin 8192) (i : Fin 1024) :
    Host.gather gather_S4096x1024_S8192x1_S8192x1024_1_0_n_n_0_1_11024 x si (ix2 j i)
      = x (ix2 ⟨min (si (ix2 j (0 : Fin 1))).toInt.toNat 4095, by omega⟩ i) := by
  have h0 : gather_S4096x1024_S8192x1_S8192x1024_1_0_n_n_0_1_11024.start (ix2 j i) si (0 : Fin 2)
      + gather_S4096x1024_S8192x1_S8192x1024_1_0_n_n_0_1_11024.batchCoord (ix2 j i) (0 : Fin 2)
      + gather_S4096x1024_S8192x1_S8192x1024_1_0_n_n_0_1_11024.offCoord (ix2 j i) (0 : Fin 2)
      = min (si (ix2 j (0 : Fin 1))).toInt.toNat 4095 := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ gather_S4096x1024_S8192x1_S8192x1024_1_0_n_n_0_1_11024.startIndexMap from
      List.mem_singleton.mpr rfl)]
    have hsi : gather_S4096x1024_S8192x1_S8192x1024_1_0_n_n_0_1_11024.siIdx (ix2 j i)
        ⟨List.idxOf (0 : Fin 2) gather_S4096x1024_S8192x1_S8192x1024_1_0_n_n_0_1_11024.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  have h1 : gather_S4096x1024_S8192x1_S8192x1024_1_0_n_n_0_1_11024.start (ix2 j i) si (1 : Fin 2)
      + gather_S4096x1024_S8192x1_S8192x1024_1_0_n_n_0_1_11024.batchCoord (ix2 j i) (1 : Fin 2)
      + gather_S4096x1024_S8192x1_S8192x1024_1_0_n_n_0_1_11024.offCoord (ix2 j i) (1 : Fin 2)
      = i.val := by
    have hn : (1 : Fin 2) ∉ gather_S4096x1024_S8192x1_S8192x1024_1_0_n_n_0_1_11024.startIndexMap :=
      fun h => absurd (List.mem_singleton.mp h) (by decide)
    have hk : (1 : Fin 2) ∈ gather_S4096x1024_S8192x1_S8192x1024_1_0_n_n_0_1_11024.sKept :=
      (GatherDims.mem_sKept _ _).mpr ⟨fun h => absurd (List.mem_singleton.mp h) (by decide), List.not_mem_nil⟩
    rw [GatherDims.batchCoord_eq_zero _ _ _ List.not_mem_nil, Nat.add_zero]
    unfold GatherDims.start GatherDims.offCoord
    rw [dif_neg hn, dif_pos hk, Nat.zero_add]
    rfl
  unfold Host.gather
  congr 1
  funext a
  refine Fin.ext ?_
  match a with
  | ⟨0, _⟩ => exact h0
  | ⟨1, _⟩ => exact h1

/-- The flat gather read at `j`: the operand at the start word (read signed, clamped into the array). -/
private theorem gatherFlat_apply {α : Type} (x : S8192.Idx → α) (si : IVec S8192x1 32) (j : Fin 8192) :
    Host.gather gather_S8192_S8192x1_S8192_n_0_n_n_0_1_1 x si (ix1 j)
      = x (ix1 ⟨min (si (ix2 j (0 : Fin 1))).toInt.toNat 8191, by omega⟩) := by
  have h0 : gather_S8192_S8192x1_S8192_n_0_n_n_0_1_1.start (ix1 j) si (0 : Fin 1)
      + gather_S8192_S8192x1_S8192_n_0_n_n_0_1_1.batchCoord (ix1 j) (0 : Fin 1)
      + gather_S8192_S8192x1_S8192_n_0_n_n_0_1_1.offCoord (ix1 j) (0 : Fin 1)
      = min (si (ix2 j (0 : Fin 1))).toInt.toNat 8191 := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 1) ∈ gather_S8192_S8192x1_S8192_n_0_n_n_0_1_1.startIndexMap from
      List.mem_singleton.mpr rfl)]
    have hsi : gather_S8192_S8192x1_S8192_n_0_n_n_0_1_1.siIdx (ix1 j)
        ⟨List.idxOf (0 : Fin 1) gather_S8192_S8192x1_S8192_n_0_n_n_0_1_1.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- The gates laid out flat read, at slot `p`, entry `p % 2` of token `p / 2`. -/
private theorem gatesFlat_apply {α : Type} (g : S4096x2.Idx → α) (p : Fin 8192) :
    shapeCast S8192 g Facts₀.shapeCasts_S4096x2_S8192 (ix1 p)
      = g (ix2 ⟨p.val / 2, by omega⟩ ⟨p.val % 2, Nat.mod_lt _ (by decide)⟩) :=
  shapeCast_apply g _ _ _ (by
    rw [Shape.rowMajor_val_two, Shape.rowMajor_val_one]
    show p.val / 2 * 2 + p.val % 2 = p.val
    omega)

/-! ## One expert's step, and the eight of them -/

/-- A select on the equality of two words is the choice on that equality. -/
private theorem select_cmpi_eq {α : Type} (a b : BitVec 32) (u v : α) :
    Scalar.select (IntOp.cmpi .eq a b) u v = if a = b then u else v := by
  show Scalar.select (BitVec.ofBool (a == b)) u v = _
  by_cases h : a = b
  · rw [if_pos h, beq_iff_eq.mpr h]; exact select_one u v
  · rw [if_neg h, beq_eq_false_iff_ne.mpr h]; exact select_zero u v

/-- The masked rows read at `(j, i)`: row `j`'s mask bit chooses the row's entry or the scalar. -/
private theorem whereRows_apply (m : IVec S8192x1 1) (a : FVec Ideal S8192x1024 .f32) (z : FVec Ideal S_ .f32)
    (j : Fin 8192) (i : Fin 1024) :
    whereRows m a z (ix2 j i) = Scalar.select (m (ix2 j (0 : Fin 1))) (a (ix2 j i)) (z ix0) := by
  show Scalar.select (broadcastInDim S8192x1024 ![0, 1] Facts₀.bcast_S8192x1_S8192x1024_0_1 m (ix2 j i)) (a (ix2 j i))
      (broadcastInDim S8192x1024 ![] Facts₀.bcast_S_S8192x1024 z (ix2 j i)) = _
  rw [bcastRow_apply, broadcastInDim_scalar_apply]

/-- Expert `e`'s matrix, cut out of the weights and with its unit axis dropped, read at `(i, d)`. -/
private theorem sliceW_apply {α : Type} (e : Fin 8) (h : S8x1024x1024.Slices ![e.val, 0, 0] S1x1024x1024)
    (w : S8x1024x1024.Idx → α) (i d : Fin 1024) :
    shapeCast S1024x1024 (extractStridedSlice S1x1024x1024 ![e.val, 0, 0] w h) Facts₀.shapeCasts_S1x1024x1024_S1024x1024
        (ix2 i d) = w (ix3 e i d) := by
  rw [shapeCast_1ab_ab_apply]
  exact extractStridedSlice_apply _ w h _ _ fun a => match a with
    | ⟨0, _⟩ => rfl
    | ⟨1, _⟩ => (Nat.zero_add _).symm
    | ⟨2, _⟩ => (Nat.zero_add _).symm

/-- One expert's step read at `(j, d)`: the running sum plus row `j`, kept where its expert word is `e` and zero
    elsewhere, against column `d` of expert `e`'s matrix. -/
private theorem expertStep_apply (e : Fin 8) (k : BitVec 32) (off : Fin 3 → Nat) (hk : k = BitVec.ofNat 32 e.val)
    (hoff : off = ![e.val, 0, 0]) (h : S8x1024x1024.Slices off S1x1024x1024) (bin : IVec S8192 32)
    (rows : FVec Ideal S8192x1024 .f32) (w : FVec Ideal S8x1024x1024 .f32) (acc : FVec Ideal S8192x1024 .f32)
    (j : Fin 8192) (d : Fin 1024) :
    expertStep k off h bin rows w acc (ix2 j d)
      = acc (ix2 j d) + ∑ i : Fin 1024,
          (if bin (ix1 j) = BitVec.ofNat 32 e.val then rows (ix2 j i) else 0) * w (ix3 e i d) := by
  subst hk hoff
  show acc (ix2 j d) + FloatOps.dotGeneral dot_S8192x1024_S1024x1024_S8192x1024_1_0_0_1_n_n none .single
      (whereRows (broadcastInDim S8192x1 ![0] Facts₀.bcast_S8192_S8192x1_0
          (cmpi .eq bin (broadcastInDim S8192 ![] Facts₀.bcast_S_S8192 (constantI S_ 32 (BitVec.ofNat 32 e.val)))))
        rows (constant S_ .f32 0x00000000#32))
      (shapeCast S1024x1024 (extractStridedSlice S1x1024x1024 ![e.val, 0, 0] w h) Facts₀.shapeCasts_S1x1024x1024_S1024x1024)
      (ix2 j d) = _
  congr 1
  rw [Cert.LibRowDot.dotGeneral_apply _ rfl rfl rfl rfl rfl rfl]
  unfold Cert.LibRowDot.rowDot
  refine Finset.sum_congr rfl fun i _ => ?_
  show whereRows _ rows (constant S_ .f32 0x00000000#32) (ix2 j i) * shapeCast S1024x1024 _ _ (ix2 i d) = _
  rw [whereRows_apply, bcastCol_apply, sliceW_apply]
  show Scalar.select (IntOp.cmpi .eq (bin (ix1 j)) (BitVec.ofNat 32 e.val)) (rows (ix2 j i)) (Ideal.ofBits .f32 0x00000000#32)
      * w (ix3 e i d) = _
  rw [select_cmpi_eq, Ideal.ofBits_zero_f32]

/-- The eight steps from the zero array, read at `(j, d)`: the sum over the experts of row `j`, masked to its expert,
    against that expert's column `d`. -/
private theorem experts_apply (bin : IVec S8192 32) (rows : FVec Ideal S8192x1024 .f32) (w : FVec Ideal S8x1024x1024 .f32)
    (j : Fin 8192) (d : Fin 1024) :
    expertStep 7#32 ![7, 0, 0] Facts₀.slices_S8x1024x1024_S1x1024x1024_7_0_0 bin rows w
      (expertStep 6#32 ![6, 0, 0] Facts₀.slices_S8x1024x1024_S1x1024x1024_6_0_0 bin rows w
      (expertStep 5#32 ![5, 0, 0] Facts₀.slices_S8x1024x1024_S1x1024x1024_5_0_0 bin rows w
      (expertStep 4#32 ![4, 0, 0] Facts₀.slices_S8x1024x1024_S1x1024x1024_4_0_0 bin rows w
      (expertStep 3#32 ![3, 0, 0] Facts₀.slices_S8x1024x1024_S1x1024x1024_3_0_0 bin rows w
      (expertStep 2#32 ![2, 0, 0] Facts₀.slices_S8x1024x1024_S1x1024x1024_2_0_0 bin rows w
      (expertStep 1#32 ![1, 0, 0] Facts₀.slices_S8x1024x1024_S1x1024x1024_1_0_0 bin rows w
      (expertStep 0#32 ![0, 0, 0] Facts₀.slices_S8x1024x1024_S1x1024x1024_0_0_0 bin rows w
      (broadcastInDim S8192x1024 ![] Facts₀.bcast_S_S8192x1024 (constant S_ .f32 0x00000000#32))))))))) (ix2 j d)
      = ∑ e : Fin 8, ∑ i : Fin 1024,
          (if bin (ix1 j) = BitVec.ofNat 32 e.val then rows (ix2 j i) else 0) * w (ix3 e i d) := by
  rw [expertStep_apply 7 7#32 ![7, 0, 0] rfl rfl, expertStep_apply 6 6#32 ![6, 0, 0] rfl rfl,
    expertStep_apply 5 5#32 ![5, 0, 0] rfl rfl, expertStep_apply 4 4#32 ![4, 0, 0] rfl rfl,
    expertStep_apply 3 3#32 ![3, 0, 0] rfl rfl, expertStep_apply 2 2#32 ![2, 0, 0] rfl rfl,
    expertStep_apply 1 1#32 ![1, 0, 0] rfl rfl, expertStep_apply 0 0#32 ![0, 0, 0] rfl rfl,
    broadcastInDim_scalar_apply, constant_apply, Ideal.ofBits_zero_f32, zero_add, Fin.sum_univ_eight]

/-! ## The gathered rows and gates at a row whose word is known -/

/-- A number below 4096 as a word, read signed, is that number. -/
private theorem ofNat_toInt (n : Nat) (h : n < 4096) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

/-- The row gather at a row whose start word is the row number `r`: the operand's row `r`. -/
private theorem rows_apply {α : Type} (x : S4096x1024.Idx → α) (v : IVec S8192 32) (j : Fin 8192) (i : Fin 1024)
    (r : Fin 4096) (hv : (v (ix1 j)).toInt = (r.val : Int)) :
    Host.gather gather_S4096x1024_S8192x1_S8192x1024_1_0_n_n_0_1_11024 x
        (broadcastInDim S8192x1 ![0] Facts₀.bcast_S8192_S8192x1_0 v) (ix2 j i) = x (ix2 r i) := by
  rw [gatherRows_apply]
  refine congrArg (fun q => x (ix2 q i)) (Fin.ext ?_)
  show min (broadcastInDim S8192x1 ![0] Facts₀.bcast_S8192_S8192x1_0 v (ix2 j (0 : Fin 1))).toInt.toNat 4095 = r.val
  rw [bcastCol_apply, hv, Int.toNat_natCast]
  have := r.isLt
  omega

/-- The gate gather at a row whose start word is the slot number `p`: entry `p % 2` of token `p / 2`. -/
private theorem gate_apply {α : Type} (g : S4096x2.Idx → α) (v : IVec S8192 32) (j : Fin 8192) (p : Fin 8192)
    (hv : (v (ix1 j)).toInt = (p.val : Int)) :
    Host.gather gather_S8192_S8192x1_S8192_n_0_n_n_0_1_1 (shapeCast S8192 g Facts₀.shapeCasts_S4096x2_S8192)
        (broadcastInDim S8192x1 ![0] Facts₀.bcast_S8192_S8192x1_0 v) (ix1 j)
      = g (ix2 ⟨p.val / 2, by omega⟩ ⟨p.val % 2, Nat.mod_lt _ (by decide)⟩) := by
  rw [gatherFlat_apply]
  have hp : (⟨min (broadcastInDim S8192x1 ![0] Facts₀.bcast_S8192_S8192x1_0 v (ix2 j (0 : Fin 1))).toInt.toNat 8191,
      by omega⟩ : Fin 8192) = p := by
    refine Fin.ext ?_
    show min (broadcastInDim S8192x1 ![0] Facts₀.bcast_S8192_S8192x1_0 v (ix2 j (0 : Fin 1))).toInt.toNat 8191 = p.val
    rw [bcastCol_apply, hv, Int.toNat_natCast]
    have := p.isLt
    omega
  rw [hp, gatesFlat_apply]

/-! ## The scatter-add -/

/-- The scatter's start on the row axis is the row word read signed. -/
private theorem scatter_start0 (si : IVec S8192x1 32) (j : Fin 8192) (d' : Fin 1024) :
    scatter_S4096x1024_S8192x1_S8192x1024_1_0_0_1.start (ix2 j d') si (0 : Fin 2) = (si (ix2 j (0 : Fin 1))).toInt := by
  unfold ScatterDims.start
  rw [dif_pos (show (0 : Fin 2) ∈ scatter_S4096x1024_S8192x1_S8192x1024_1_0_0_1.scatterDimsToOperandDims from
    List.mem_singleton.mpr rfl)]
  have hsi : scatter_S4096x1024_S8192x1_S8192x1024_1_0_0_1.siIdx (ix2 j d')
      ⟨List.idxOf (0 : Fin 2) scatter_S4096x1024_S8192x1_S8192x1024_1_0_0_1.scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- It has no start on the column axis. -/
private theorem scatter_start1 (si : IVec S8192x1 32) (j : Fin 8192) (d' : Fin 1024) :
    scatter_S4096x1024_S8192x1_S8192x1024_1_0_0_1.start (ix2 j d') si (1 : Fin 2) = 0 := by
  have hn : (1 : Fin 2) ∉ scatter_S4096x1024_S8192x1_S8192x1024_1_0_0_1.scatterDimsToOperandDims :=
    fun h => absurd (List.mem_singleton.mp h) (by decide)
  unfold ScatterDims.start
  rw [dif_neg hn]

/-- The window has no extent on the row axis. -/
private theorem scatter_window0 (j : Fin 8192) (d' : Fin 1024) :
    scatter_S4096x1024_S8192x1_S8192x1024_1_0_0_1.window (ix2 j d') (0 : Fin 2) = 0 := by
  unfold ScatterDims.window
  rw [dif_neg (by decide)]

/-- On the column axis the window coordinate is the update's column. -/
private theorem scatter_window1 (j : Fin 8192) (d' : Fin 1024) :
    scatter_S4096x1024_S8192x1_S8192x1024_1_0_0_1.window (ix2 j d') (1 : Fin 2) = d'.val := by
  unfold ScatterDims.window
  rw [dif_pos (by decide)]
  rfl

/-- Update `(j, d')` of a row whose word is the row number `r` lands at `(r, d')`. -/
private theorem scatter_resultIdx (si : IVec S8192x1 32) (j : Fin 8192) (d' : Fin 1024) (r : Fin 4096)
    (hr : (si (ix2 j (0 : Fin 1))).toInt = (r.val : Int)) :
    scatter_S4096x1024_S8192x1_S8192x1024_1_0_0_1.resultIdx? (ix2 j d') si = some (ix2 r d') := by
  have e0 : scatter_S4096x1024_S8192x1_S8192x1024_1_0_0_1.start (ix2 j d') si (0 : Fin 2)
      + ((scatter_S4096x1024_S8192x1_S8192x1024_1_0_0_1.window (ix2 j d') (0 : Fin 2) : Nat) : Int) = (r.val : Int) := by
    rw [scatter_start0, scatter_window0, hr]; omega
  have e1 : scatter_S4096x1024_S8192x1_S8192x1024_1_0_0_1.start (ix2 j d') si (1 : Fin 2)
      + ((scatter_S4096x1024_S8192x1_S8192x1024_1_0_0_1.window (ix2 j d') (1 : Fin 2) : Nat) : Int) = (d'.val : Int) := by
    rw [scatter_start1, scatter_window1]; omega
  have h : ∀ a, 0 ≤ scatter_S4096x1024_S8192x1_S8192x1024_1_0_0_1.start (ix2 j d') si a
        + ((scatter_S4096x1024_S8192x1_S8192x1024_1_0_0_1.window (ix2 j d') a : Nat) : Int)
      ∧ scatter_S4096x1024_S8192x1_S8192x1024_1_0_0_1.start (ix2 j d') si a
        + ((scatter_S4096x1024_S8192x1_S8192x1024_1_0_0_1.window (ix2 j d') a : Nat) : Int) < ((S4096x1024.size a : Nat) : Int) := by
    intro a
    match a with
    | ⟨0, _⟩ =>
      have := r.isLt
      show 0 ≤ scatter_S4096x1024_S8192x1_S8192x1024_1_0_0_1.start (ix2 j d') si (0 : Fin 2)
          + ((scatter_S4096x1024_S8192x1_S8192x1024_1_0_0_1.window (ix2 j d') (0 : Fin 2) : Nat) : Int)
        ∧ scatter_S4096x1024_S8192x1_S8192x1024_1_0_0_1.start (ix2 j d') si (0 : Fin 2)
          + ((scatter_S4096x1024_S8192x1_S8192x1024_1_0_0_1.window (ix2 j d') (0 : Fin 2) : Nat) : Int) < ((4096 : Nat) : Int)
      rw [e0]; omega
    | ⟨1, _⟩ =>
      have := d'.isLt
      show 0 ≤ scatter_S4096x1024_S8192x1_S8192x1024_1_0_0_1.start (ix2 j d') si (1 : Fin 2)
          + ((scatter_S4096x1024_S8192x1_S8192x1024_1_0_0_1.window (ix2 j d') (1 : Fin 2) : Nat) : Int)
        ∧ scatter_S4096x1024_S8192x1_S8192x1024_1_0_0_1.start (ix2 j d') si (1 : Fin 2)
          + ((scatter_S4096x1024_S8192x1_S8192x1024_1_0_0_1.window (ix2 j d') (1 : Fin 2) : Nat) : Int) < ((1024 : Nat) : Int)
      rw [e1]; omega
  unfold ScatterDims.resultIdx?
  rw [dif_pos h]
  refine congrArg some (funext fun a => Fin.ext ?_)
  match a with
  | ⟨0, _⟩ =>
    show (scatter_S4096x1024_S8192x1_S8192x1024_1_0_0_1.start (ix2 j d') si (0 : Fin 2)
      + ((scatter_S4096x1024_S8192x1_S8192x1024_1_0_0_1.window (ix2 j d') (0 : Fin 2) : Nat) : Int)).toNat = r.val
    rw [e0, Int.toNat_natCast]
  | ⟨1, _⟩ =>
    show (scatter_S4096x1024_S8192x1_S8192x1024_1_0_0_1.start (ix2 j d') si (1 : Fin 2)
      + ((scatter_S4096x1024_S8192x1_S8192x1024_1_0_0_1.window (ix2 j d') (1 : Fin 2) : Nat) : Int)).toNat = d'.val
    rw [e1, Int.toNat_natCast]

/-- Two rank-2 indices are equal exactly when their coordinates are. -/
private theorem ix2_eq_iff {n0 n1 : Nat} (a a' : Fin n0) (b b' : Fin n1) : ix2 a b = ix2 a' b' ↔ a = a' ∧ b = b' :=
  ⟨fun h => ⟨congrFun h (0 : Fin 2), congrFun h (1 : Fin 2)⟩, fun ⟨ha, hb⟩ => by rw [ha, hb]⟩

/-- The updates that land at `(t, d)` are column `d` of the rows whose word names row `t`: the sum over the rank-2 update
    index is re-indexed as the sum over its two coordinates, and the column sum keeps its one term. -/
private theorem scatter_sum (si : IVec S8192x1 32) (tk : Fin 8192 → Fin 4096)
    (htk : ∀ j, (si (ix2 j (0 : Fin 1))).toInt = ((tk j).val : Int)) (upd : S8192x1024.Idx → EReal) (t : Fin 4096)
    (d : Fin 1024)
    [inst : DecidablePred fun p : S8192x1024.Idx =>
      scatter_S4096x1024_S8192x1_S8192x1024_1_0_0_1.resultIdx? p si = some (ix2 t d)] :
    ∑ p ∈ Finset.univ.filter (fun p : S8192x1024.Idx =>
        scatter_S4096x1024_S8192x1_S8192x1024_1_0_0_1.resultIdx? p si = some (ix2 t d)), upd p
      = ∑ j ∈ Finset.univ.filter (fun j : Fin 8192 => tk j = t), upd (ix2 j d) := by
  rw [Finset.sum_filter, sum_idx2, Finset.sum_filter]
  refine Finset.sum_congr rfl fun j _ => ?_
  have hc : ∀ d' : Fin 1024,
      (scatter_S4096x1024_S8192x1_S8192x1024_1_0_0_1.resultIdx? (ix2 j d') si = some (ix2 t d)) ↔ (tk j = t ∧ d' = d) := by
    intro d'
    rw [scatter_resultIdx si j d' (tk j) (htk j), Option.some.injEq, ix2_eq_iff]
  by_cases ht : tk j = t
  · simp only [hc, ht, true_and, if_true, Finset.sum_ite_eq', Finset.mem_univ]
  · simp only [hc, ht, false_and, if_false, Finset.sum_const_zero]

/-! ## The whole function -/

/-- The reference's result at row `t`, column `d`, when every index word is a slot number: the gated rows whose slot
    belongs to token `t`, added up. -/
theorem refFun_apply (x : FVec Ideal S4096x1024 .f32) (w : FVec Ideal S8x1024x1024 .f32) (bin idx : IVec S8192 32)
    (g : FVec Ideal S4096x2 .f32)
    (hr : ∀ j : Fin 8192, 0 ≤ (idx (ix1 j)).toInt ∧ (idx (ix1 j)).toInt < 8192) (t : Fin 4096) (d : Fin 1024) :
    (refFun (F := Ideal) x w bin idx g : S4096x1024.Idx → EReal) (ix2 t d) = Cert.Spec.refOut x w bin idx g t d := by
  -- every slot word is the same number read signed or unsigned, below 8192
  have hsl : ∀ j : Fin 8192, (idx (ix1 j)).toInt = ((idx (ix1 j)).toNat : Int) ∧ (idx (ix1 j)).toNat < 8192 :=
    fun j => toNat_of_range _ (hr j).1 (hr j).2
  -- the row word of row j (half its slot number, not wrapped), read signed, is its token
  have hrow : ∀ j : Fin 8192,
      (wrapNeg 4096#32 (floorDivide idx (constantI S_ 32 2#32)) (ix1 j)).toInt = ((Cert.Spec.tokOf idx j).val : Int) := by
    intro j
    have hfd := floorDivide_apply idx j (hr j).1 (hr j).2
    have hlt : (idx (ix1 j)).toNat / 2 < 4096 := by have := (hsl j).2; omega
    have hq : (floorDivide idx (constantI S_ 32 2#32) (ix1 j)).toInt = (((idx (ix1 j)).toNat / 2 : Nat) : Int) := by
      rw [hfd, ofNat_toInt _ hlt]
    rw [wrapNeg_apply _ _ _ (by rw [hq]; omega), hq]
    show (((idx (ix1 j)).toNat / 2 : Nat) : Int) = (((idx (ix1 j)).toNat % 8192 / 2 : Nat) : Int)
    rw [Nat.mod_eq_of_lt (hsl j).2]
  -- the slot word of row j (not wrapped), read signed, is its slot
  have hslot : ∀ j : Fin 8192, (wrapNeg 8192#32 idx (ix1 j)).toInt = ((Cert.Spec.slot idx j).val : Int) := by
    intro j
    rw [wrapNeg_apply _ _ _ (hr j).1, (hsl j).1]
    show ((idx (ix1 j)).toNat : Int) = (((idx (ix1 j)).toNat % 8192 : Nat) : Int)
    rw [Nat.mod_eq_of_lt (hsl j).2]
  -- the scatter-add onto the zero array: the updates landing at (t, d) are column d of the rows of token t
  show Ideal.hostScatterAdd _ _ _ _ (ix2 t d) = _
  unfold Ideal.hostScatterAdd
  rw [broadcastInDim_scalar_apply, constant_apply, Ideal.ofBits_zero_f32, zero_add,
    scatter_sum _ (fun j => Cert.Spec.tokOf idx j) (fun j => by rw [bcastCol_apply]; exact hrow j)]
  unfold Cert.Spec.refOut
  refine Finset.sum_congr rfl fun j _ => ?_
  -- row j at column d: the eight experts' sum times the row's gate
  rw [mulf_apply, experts_apply, bcastRow_apply, bcastCol_apply, gate_apply g _ j (Cert.Spec.slot idx j) (hslot j)]
  unfold Cert.Spec.refRow
  refine congrArg₂ (· * ·) (Finset.sum_congr rfl fun e _ => Finset.sum_congr rfl fun i _ => ?_) rfl
  rw [rows_apply x _ j i (Cert.Spec.tokOf idx j) (hrow j)]

end Cert.ReferenceIdeal.RefValue

end
-- ==== Proof.lean ====
/-
  The kernel computes, for token t and output column d,  sum_e (x[t] . W[e])[d] * tab[t,e],  where the host has built
  tab[t,e] = sum_k g[t,k] * [fe(2t+k) = e]  from the expert fe(p) a scatter-set leaves at flat slot p = 2t + k
  (fe(idx j) := bin j, zero elsewhere).  The reference gathers the tokens into the scattered order (row j is slot idx j),
  multiplies each row by its expert's matrix, gates it and adds the rows back to their tokens.
  When idx is a permutation of the 8192 slots the scatter-set inverts it, the rows of token t are exactly the two rows
  naming slots 2t and 2t+1, and with real inputs the products distribute over the sums: the two results are equal.
  The precondition says that idx is such a permutation (every word a slot number, no two rows the same slot) and that
  the float inputs are finite.
  Modules: Spec (both results as plain sums), Algebra (they are equal), PreDecode (what the precondition says),
  KerTable (the scatter-set and the table the region finds), KerValue (the kernel's fold over the experts, read at an
  index), RefFun / RefRun / RefValue (the reference's run as one function, and that function read at an index).
-/
import proofs.«416535_j66271345377806_2_alg».proof.Defs
import proofs.«416535_j66271345377806_2_alg».proof.Proof.Gen.Kernel
import proofs.«416535_j66271345377806_2_alg».proof.Proof.Gen.Kernel.Skeleton
import proofs.«416535_j66271345377806_2_alg».proof.Proof.Gen.Kernel.Launch
import proofs.«416535_j66271345377806_2_alg».proof.Proof.Gen.Kernel.Points
import proofs.«416535_j66271345377806_2_alg».proof.Proof.Gen.Kernel.Frame
import proofs.«416535_j66271345377806_2_alg».proof.Proof.Gen.KernelIdeal
import proofs.«416535_j66271345377806_2_alg».proof.Proof.Gen.KernelIdeal.Skeleton
import proofs.«416535_j66271345377806_2_alg».proof.Proof.Gen.KernelIdeal.Launch
import proofs.«416535_j66271345377806_2_alg».proof.Proof.Gen.KernelIdeal.Points
import proofs.«416535_j66271345377806_2_alg».proof.Proof.Gen.KernelIdeal.Frame
import proofs.«416535_j66271345377806_2_alg».proof.Proof.Gen.KernelIdeal.Value
import proofs.«416535_j66271345377806_2_alg».proof.Proof.Gen.ReferenceIdeal
import proofs.«416535_j66271345377806_2_alg».proof.Proof.Gen.Pre_finite_inputs
import proofs.«416535_j66271345377806_2_alg».proof.Proof.Spec
import proofs.«416535_j66271345377806_2_alg».proof.Proof.Algebra
import proofs.«416535_j66271345377806_2_alg».proof.Proof.PreDecode
import proofs.«416535_j66271345377806_2_alg».proof.Proof.KerTable
import proofs.«416535_j66271345377806_2_alg».proof.Proof.KerValue
import proofs.«416535_j66271345377806_2_alg».proof.Proof.RefFun
import proofs.«416535_j66271345377806_2_alg».proof.Proof.RefRun
import proofs.«416535_j66271345377806_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end at one array: the kernel's fold over the experts and the reference's gated scatter-add are the same
    function of arguments that agree, index by index, once the precondition makes `idx` a permutation and the inputs real. -/
theorem algebraic : Cert.algebraic_KernelIdeal_ReferenceIdeal := by
  intro m ρ m' ρ' hpre hagree
  refine ⟨fun c => Cert.KernelIdeal.Value.G3 (F := Ideal) m c, Cert.KernelIdeal.Value.run (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨a0, a1, a2, a3, _, _, a6⟩ := hagree c
  rw [a0, a1, a2, a3, a6]
  obtain ⟨hperm, hx, hw, hg⟩ := Cert.PreDecode.of_pre _ _ _ _ _ _ _ (hpre c)
  funext i
  obtain ⟨t, d, rfl⟩ : ∃ (t : Fin 4096) (d : Fin 1024), i = ix2 t d := ⟨i 0, i 1, eq_ix2 i⟩
  refine (Cert.ReferenceIdeal.RefValue.refFun_apply _ _ _ _ _ hperm.range t d).trans ?_
  refine Eq.trans ?_ (Cert.KernelIdeal.KerValue.G3_apply m c t d).symm
  exact (Cert.Spec.kerOut_eq_refOut _ _ _ _ _ _ _ hperm
    (Cert.KernelIdeal.Table.fe_spec _ _ hperm) (Cert.KernelIdeal.Table.V_tab m c) hx hw hg t d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
